-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S16x32 : Shape := ⟨2, ![16, 32]⟩
abbrev S16 : Shape := ⟨1, ![16]⟩
abbrev S48x16 : Shape := ⟨2, ![48, 16]⟩
abbrev S48 : Shape := ⟨1, ![48]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S48x16 : S_.BroadcastsInDim S48x16 (![] : Fin 0 → Fin S48x16.rank)
  reducesTo_S48x16_S_d0_1 : S48x16.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg4 : FVec F S48x16 .f32) (main_arg5 : FVec F S48 .f32) (main_arg6 : FVec F S48 .f32) (main_v13 : IVec S_ 1) (main_v16 : IVec S48x16 1) : IVec S_ 1 :=
  let main_c_5 : IVec S_ 1 := constantI S_ 1 1#1
  let main_v17 : IVec S_ 1 := (fun x v => Host.reduce IntOp.andi x v reducesTo_S48x16_S_d0_1 h_S_) main_v16 main_c_5
  let main_v18 : IVec S_ 1 := andi main_v13 main_v17
  let main_v19 : FVec F S48x16 .f32 := Host.absf main_arg4
  let main_cst_6 : FVec F S_ .f32 := constant S_ .f32 0x7F800000#32
  let main_v20 : FVec F S48x16 .f32 := broadcastInDim S48x16 ![] bcast_S_S48x16 main_cst_6
  let main_v21 : IVec S48x16 1 := cmpf .olt main_v19 main_v20
  let main_c_7 : IVec S_ 1 := constantI S_ 1 1#1
  let main_v22 : IVec S_ 1 := (fun x v => Host.reduce IntOp.andi x v reducesTo_S48x16_S_d0_1 h_S_) main_v21 main_c_7
  let main_v23 : IVec S_ 1 := andi main_v18 main_v22
  let main_v24 : FVec F S48 .f32 := Host.absf main_arg5
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  main_v33

def fn {F : FTy → Type} [FloatOps F] (main_arg0 : FVec F S1024x16 .f32) (main_arg1 : FVec F S16x32 .f32) (main_arg2 : FVec F S16 .f32) (main_arg3 : FVec F S48x16 .f32) (main_arg4 : FVec F S48x16 .f32) (main_arg5 : FVec F S48 .f32) (main_arg6 : FVec F S48 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S48x16 .f32 := Host.absf main_arg3
  let main_cst_4 : FVec F S_ .f32 := constant S_ .f32 0x7F800000#32
  let main_v15 : FVec F S48x16 .f32 := broadcastInDim S48x16 ![] bcast_S_S48x16 main_cst_4
  let main_v16 : IVec S48x16 1 := cmpf .olt main_v14 main_v15
  fn_part1 (F := F) main_arg4 main_arg5 main_arg6 main_v13 main_v16
-- ==== Kernel.lean ====
abbrev S1024x16 : Shape := ⟨2, ![1024, 16]⟩
abbrev S16x32 : Shape := ⟨2, ![16, 32]⟩
abbrev S16 : Shape := ⟨1, ![16]⟩
abbrev S48x16 : Shape := ⟨2, ![48, 16]⟩
abbrev S48 : Shape := ⟨1, ![48]⟩
abbrev S16x16 : Shape := ⟨2, ![16, 16]⟩
abbrev S16x48 : Shape := ⟨2, ![16, 48]⟩
abbrev S16x128 : Shape := ⟨2, ![16, 128]⟩
abbrev S112 : Shape := ⟨1, ![112]⟩
abbrev S1x112 : Shape := ⟨2, ![1, 112]⟩
abbrev S1x16 : Shape := ⟨2, ![1, 16]⟩
abbrev S1x48 : Shape := ⟨2, ![1, 48]⟩
abbrev S1024x48 : Shape := ⟨2, ![1024, 48]⟩
abbrev S1024x32 : Shape := ⟨2, ![1024, 32]⟩

abbrev nBuf : Space → Nat
  | .hbm => 17
  | .vmem => 4
  | .smem => 0
  | _ => 0

abbrev bufTy : (tb : Table) → Fin (tcTables nBuf tb) → BufTy
  | .hbm, ⟨0, _⟩ => ⟨S1024x16, .f32⟩
  | .hbm, ⟨1, _⟩ => ⟨S16x32, .f32⟩
  | .hbm, ⟨2, _⟩ => ⟨S16, .f32⟩
  | .hbm, ⟨3, _⟩ => ⟨S48x16, .f32⟩
  | .hbm, ⟨4, _⟩ => ⟨S48x16, .f32⟩
  | .hbm, ⟨5, _⟩ => ⟨S48, .f32⟩
  | .hbm, ⟨6, _⟩ => ⟨S48, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S16x16, .f32⟩
  | .hbm, ⟨11, _⟩ => ⟨S16x48, .f32⟩
  | .hbm, ⟨12, _⟩ => ⟨S16x48, .f32⟩
  | .hbm, ⟨13, _⟩ => ⟨S16x128, .f32⟩
  | .hbm, ⟨14, _⟩ => ⟨S112, .f32⟩
  | .hbm, ⟨15, _⟩ => ⟨S1x112, .f32⟩
  | .hbm, ⟨16, _⟩ => ⟨S1024x16, .f32⟩
  | .local _ .vmem, ⟨0, _⟩ => ⟨S1024x16, .f32⟩
  | .local _ .vmem, ⟨1, _⟩ => ⟨S16x128, .f32⟩
  | .local _ .vmem, ⟨2, _⟩ => ⟨S1x112, .f32⟩
  | .local _ .vmem, ⟨3, _⟩ => ⟨S1024x16, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  slices_S16x32_S16x16_0_0 : S16x32.Slices ![0, 0] S16x16
  transposes_S16x16_S16x16_1_0 : S16x16.Transposes [1, 0] S16x16
  slices_S16x32_S16x16_0_16 : S16x32.Slices ![0, 16] S16x16
  transposes_S48x16_S16x48_1_0 : S48x16.Transposes [1, 0] S16x48
  concatenates_S16x16_S16x16_S16x48_S16x48_S16x128_d1 : Shape.Concatenates [S16x16, S16x16, S16x48, S16x48] S16x128 1
  concatenates_S16_S48_S48_S112_d0 : Shape.Concatenates [S16, S48, S48] S112 0
  shapeCasts_S112_S1x112 : S112.ShapeCasts S1x112
  inb_S1024x16_S1024x16_0_0 : ∀ a, (![0, 0] : Fin 2 → Nat) a + S1024x16.size a ≤ S1024x16.size a
  h_S1024x16 : 0 < S1024x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x112_S1x112_0_0 : ∀ a, (![0, 0] : Fin 2 → Nat) a + S1x112.size a ≤ S1x112.size a
  h_S1x112 : 0 < S1x112.numel
  shapeCasts_S1x112_S1x112 : S1x112.ShapeCasts S1x112
  slices_S16x128_o0_0_S16x16 : S16x128.Slices ![0, 0] S16x16
  slices_S16x128_o0_16_S16x16 : S16x128.Slices ![0, 16] S16x16
  slices_S16x128_o0_32_S16x48 : S16x128.Slices ![0, 32] S16x48
  slices_S16x128_o0_80_S16x48 : S16x128.Slices ![0, 80] S16x48
  slices_S1x112_o0_0_S1x16 : S1x112.Slices ![0, 0] S1x16
  slices_S1x112_o0_16_S1x48 : S1x112.Slices ![0, 16] S1x48
  slices_S1x112_o0_64_S1x48 : S1x112.Slices ![0, 64] S1x48
  reduces_S1024x16_S16 : S1024x16.Reduces [0] S16
  shapeCasts_S16_S1x16 : S16.ShapeCasts S1x16
  broadcasts_S1x16_S1024x16 : S1x16.Broadcasts S1024x16
  broadcasts_S1x48_S1024x48 : S1x48.Broadcasts S1024x48
  slices_S1024x48_o0_0_S1024x32 : S1024x48.Slices ![0, 0] S1024x32
  slices_S1024x32_o0_0_S1024x16 : S1024x32.Slices ![0, 0] S1024x16
  slices_S1024x32_o0_16_S1024x16 : S1024x32.Slices ![0, 16] S1024x16
  slices_S1024x48_o0_32_S1024x16 : S1024x48.Slices ![0, 32] S1024x16
  dot_S1x16_S16x16_S1x16_1_0_0_1_n_n_wf : DotDims.WF S1x16 S16x16 S1x16 [1] [0] [0] [1] [] []
  dot_S1024x16_S16x16_S1024x16_1_0_0_1_n_n_wf : DotDims.WF S1024x16 S16x16 S1024x16 [1] [0] [0] [1] [] []
  dot_S1024x16_S16x48_S1024x48_1_0_0_1_n_n_wf : DotDims.WF S1024x16 S16x48 S1024x48 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S1x16_S16x16_S1x16_1_0_0_1_n_n : DotDims S1x16 S16x16 S1x16 where
  lhsContracting := [1]
  rhsContracting := [0]
  lhsNonContracting := [0]
  rhsNonContracting := [1]
  lhsBatch := []
  rhsBatch := []
  wf := dot_S1x16_S16x16_S1x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x48_S1024x48_1_0_0_1_n_n : DotDims S1024x16 S16x48 S1024x48 where
  lhsContracting := [1]
  rhsContracting := [0]
  lhsNonContracting := [0]
  rhsNonContracting := [1]
  lhsBatch := []
  rhsBatch := []
  wf := dot_S1024x16_S16x48_S1024x48_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v6) false false (stage0_1 0) (sem0_1 0) (Memref.isWhole_whole _) (hstage0_1 0)

abbrev win0_2 : Pipeline.Window sig grid0 :=
  Pipeline.Window.whole (Memref.whole main_v8) false false (stage0_2 0) (sem0_2 0) (Memref.isWhole_whole _) (hstage0_2 0)

abbrev win0_3 : Pipeline.Window sig grid0 :=
  Pipeline.Window.whole (Memref.whole main_v9) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x16 : Shape := ⟨2, ![1024, 16]⟩
abbrev S16x32 : Shape := ⟨2, ![16, 32]⟩
abbrev S16 : Shape := ⟨1, ![16]⟩
abbrev S48x16 : Shape := ⟨2, ![48, 16]⟩
abbrev S48 : Shape := ⟨1, ![48]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S_ : Shape := ⟨0, ![]⟩
abbrev S1048576x1 : Shape := ⟨2, ![1048576, 1]⟩
abbrev S1048576x16 : Shape := ⟨2, ![1048576, 16]⟩
abbrev S1048576x32 : Shape := ⟨2, ![1048576, 32]⟩
abbrev S32x16 : Shape := ⟨2, ![32, 16]⟩
abbrev S1x16 : Shape := ⟨2, ![1, 16]⟩
abbrev S16x48 : Shape := ⟨2, ![16, 48]⟩
abbrev S1024x48 : Shape := ⟨2, ![1024, 48]⟩
abbrev S1x48 : Shape := ⟨2, ![1, 48]⟩

abbrev nBuf : Space → Nat
  | .hbm => 92
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x32, .f32⟩
  | .hbm, ⟨2, _⟩ => ⟨S16, .f32⟩
  | .hbm, ⟨3, _⟩ => ⟨S48x16, .f32⟩
  | .hbm, ⟨4, _⟩ => ⟨S48x16, .f32⟩
  | .hbm, ⟨5, _⟩ => ⟨S48, .f32⟩
  | .hbm, ⟨6, _⟩ => ⟨S48, .f32⟩
  | .hbm, ⟨7, _⟩ => ⟨S1024, .i32⟩
  | .hbm, ⟨8, _⟩ => ⟨S1024x1024, .i32⟩
  | .hbm, ⟨9, _⟩ => ⟨S1048576, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x16, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x16, .f32⟩
  | .hbm, ⟨32, _⟩ => ⟨S1048576x32, .f32⟩
  | .hbm, ⟨33, _⟩ => ⟨S32x16, .f32⟩
  | .hbm, ⟨34, _⟩ => ⟨S1048576x16, .f32⟩
  | .hbm, ⟨35, _⟩ => ⟨S1x16, .f32⟩
  | .hbm, ⟨36, _⟩ => ⟨S1048576x16, .f32⟩
  | .hbm, ⟨37, _⟩ => ⟨S1048576x16, .f32⟩
  | .hbm, ⟨38, _⟩ => ⟨S_, .f32⟩
  | .hbm, ⟨39, _⟩ => ⟨S1024x16, .f32⟩
  | .hbm, ⟨40, _⟩ => ⟨S_, .i32⟩
  | .hbm, ⟨41, _⟩ => ⟨S1048576, .i32⟩
  | .hbm, ⟨42, _⟩ => ⟨S1048576, .i1⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S1048576x1, .i32⟩
  | .hbm, ⟨48, _⟩ => ⟨S1024x16, .f32⟩
  | .hbm, ⟨49, _⟩ => ⟨S16x48, .f32⟩
  | .hbm, ⟨50, _⟩ => ⟨S1024x48, .f32⟩
  | .hbm, ⟨51, _⟩ => ⟨S1x48, .f32⟩
  | .hbm, ⟨52, _⟩ => ⟨S1024x48, .f32⟩
  | .hbm, ⟨53, _⟩ => ⟨S1024x48, .f32⟩
  | .hbm, ⟨54, _⟩ => ⟨S16x48, .f32⟩
  | .hbm, ⟨55, _⟩ => ⟨S1024x48, .f32⟩
  | .hbm, ⟨56, _⟩ => ⟨S1x48, .f32⟩
  | .hbm, ⟨57, _⟩ => ⟨S1024x48, .f32⟩
  | .hbm, ⟨58, _⟩ => ⟨S1024x48, .f32⟩
  | .hbm, ⟨59, _⟩ => ⟨S1024x16, .f32⟩
  | .hbm, ⟨60, _⟩ => ⟨S1024x16, .f32⟩
  | .hbm, ⟨61, _⟩ => ⟨S1024x16, .f32⟩
  | .hbm, ⟨62, _⟩ => ⟨S1024x16, .f32⟩
  | .hbm, ⟨63, _⟩ => ⟨S1024x16, .f32⟩
  | .hbm, ⟨64, _⟩ => ⟨S1024x16, .f32⟩
  | .hbm, ⟨65, _⟩ => ⟨S1024x16, .f32⟩
  | .hbm, ⟨66, _⟩ => ⟨S1024x16, .f32⟩
  | .hbm, ⟨67, _⟩ => ⟨S1024x16, .f32⟩
  | .hbm, ⟨68, _⟩ => ⟨S_, .f32⟩
  | .hbm, ⟨69, _⟩ => ⟨S1024x16, .f32⟩
  | .hbm, ⟨70, _⟩ => ⟨S1024x16, .f32⟩
  | .hbm, ⟨71, _⟩ => ⟨S_, .f32⟩
  | .hbm, ⟨72, _⟩ => ⟨S1024x16, .f32⟩
  | .hbm, ⟨73, _⟩ => ⟨S1024x16, .f32⟩
  | .hbm, ⟨74, _⟩ => ⟨S1024x16, .f32⟩
  | .hbm, ⟨75, _⟩ => ⟨S1024x16, .f32⟩
  | .hbm, ⟨76, _⟩ => ⟨S1024x16, .f32⟩
  | .hbm, ⟨77, _⟩ => ⟨S_, .f32⟩
  | .hbm, ⟨78, _⟩ => ⟨S1024x16, .f32⟩
  | .hbm, ⟨79, _⟩ => ⟨S1024x16, .f32⟩
  | .hbm, ⟨80, _⟩ => ⟨S_, .f32⟩
  | .hbm, ⟨81, _⟩ => ⟨S1024x16, .f32⟩
  | .hbm, ⟨82, _⟩ => ⟨S1024x16, .f32⟩
  | .hbm, ⟨83, _⟩ => ⟨S1024x16, .f32⟩
  | .hbm, ⟨84, _⟩ => ⟨S1024x16, .f32⟩
  | .hbm, ⟨85, _⟩ => ⟨S1024x16, .f32⟩
  | .hbm, ⟨86, _⟩ => ⟨S_, .f32⟩
  | .hbm, ⟨87, _⟩ => ⟨S1024x16, .f32⟩
  | .hbm, ⟨88, _⟩ => ⟨S1024x16, .f32⟩
  | .hbm, ⟨89, _⟩ => ⟨S1024x16, .f32⟩
  | .hbm, ⟨90, _⟩ => ⟨S1024x16, .f32⟩
  | .hbm, ⟨91, _⟩ => ⟨S1024x16, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]

class Facts₀ : Prop where
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x16_S1048576x16_S1048576x32_d1 : Shape.Concatenates [S1048576x16, S1048576x16] S1048576x32 1
  transposes_S16x32_S32x16_1_0 : S16x32.Transposes [1, 0] S32x16
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1024x16 : S_.BroadcastsInDim S1024x16 (![] : Fin 0 → Fin S1024x16.rank)
  transposes_S48x16_S16x48_1_0 : S48x16.Transposes [1, 0] S16x48
  bcast_S48_S1x48_1 : S48.BroadcastsInDim S1x48 (![1] : Fin 1 → Fin S1x48.rank)
  bcast_S1x48_S1024x48_0_1 : S1x48.BroadcastsInDim S1024x48 (![0, 1] : Fin 2 → Fin S1024x48.rank)
  slices_S1024x48_S1024x16_0_0 : S1024x48.Slices ![0, 0] S1024x16
  slices_S1024x48_S1024x16_0_16 : S1024x48.Slices ![0, 16] S1024x16
  slices_S1024x48_S1024x16_0_32 : S1024x48.Slices ![0, 32] S1024x16
  gather_S1024x16_S1048576x1_S1048576x16_1_0_n_n_0_1_116_wf : GatherDims.WF S1024x16 S1048576x1 S1048576x16 [1] [0] [] [0] [] 1 ![1, 16]
  dot_S1048576x32_S32x16_S1048576x16_1_0_0_1_n_n_wf : DotDims.WF S1048576x32 S32x16 S1048576x16 [1] [0] [0] [1] [] []
  scatter_S1024x16_S1048576x1_S1048576x16_1_0_0_1_wf : ScatterDims.WF S1024x16 S1048576x1 S1048576x16 [1] [0] [0] 1
  dot_S1024x16_S16x48_S1024x48_1_0_0_1_n_n_wf : DotDims.WF S1024x16 S16x48 S1024x48 [1] [0] [0] [1] [] []

variable [Facts₀]

def gather_S1024x16_S1048576x1_S1048576x16_1_0_n_n_0_1_116 : GatherDims S1024x16 S1048576x1 S1048576x16 where
  offsetDims := [1]
  collapsedSliceDims := [0]
  operandBatchingDims := []
  startIndicesBatchingDims := []
  startIndexMap := [0]
  indexVectorDim := 1
  sliceSizes := ![1, 16]
  wf := gather_S1024x16_S1048576x1_S1048576x16_1_0_n_n_0_1_116_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def scatter_S1024x16_S1048576x1_S1048576x16_1_0_0_1 : ScatterDims S1024x16 S1048576x1 S1048576x16 where
  updateWindowDims := [1]
  insertedWindowDims := [0]
  scatterDimsToOperandDims := [0]
  indexVectorDim := 1
  wf := scatter_S1024x16_S1048576x1_S1048576x16_1_0_0_1_wf
def dot_S1024x16_S16x48_S1024x48_1_0_0_1_n_n : DotDims S1024x16 S16x48 S1024x48 where
  lhsContracting := [1]
  rhsContracting := [0]
  lhsNonContracting := [0]
  rhsNonContracting := [1]
  lhsBatch := []
  rhsBatch := []
  wf := dot_S1024x16_S16x48_S1024x48_1_0_0_1_n_n_wf

class Facts : Prop extends Facts₀ where

variable [Facts]
-- ==== Proof.FrameK.lean ====
import proofs.«156742_g71322226917400_cont_sun_m_433_6_alg».proof.Proof.Gen.Kernel.Launch
import proofs.«156742_g71322226917400_cont_sun_m_433_6_alg».proof.Proof.Gen.Kernel.Skeleton
import proofs.«156742_g71322226917400_cont_sun_m_433_6_alg».proof.Proof.Gen.Kernel.Points
import Idealize.ShloMosaic.Lib.Pipeline.FrameBody
import Idealize.ShloMosaic.Lib.Ring
import Idealize.ShloMosaic.Lib.Tactic

/-! # The frame of the program: it runs to the end and leaves its seven argument arrays as it found them

The program is a line of host operations (slices, transposes, two concatenations, a reshape) that prepare two
packed operand arrays, followed by one region without a grid whose four windows are whole arrays: three inputs
and one output. The body reads the three input buffers whole, reads the output buffer (a value nobody uses), and
overwrites the whole output buffer with a pure function of the three values read. So after the body the output
buffer holds that function of the input blocks whatever it held before, every input buffer is as it was, and no
argument array is written by anything: the host line writes only its own results, and the region writes back only
its output window. -/

-- membership in a rectangle with an axis of 1024 coordinates is decided by a structural recursion that goes one
-- level down per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- Core `c`'s buffers when the region is entered: the launch contents carried through the host operations. -/
abbrev V (c : Dev nD) (b : Ref sig .tc) : Buf (Elt F) ((c : Thread nD τ).loc b) :=
  StableHlo.after Gen.hostOps0 (fun b => m (c, b)) b

/-- No host operation allocates: each names buffers the program already has. -/
theorem hostOps0_fresh : (Gen.hostOps0 : List (HloOp τ sig (Elt F))).Forall fun op => op.fresh = ∅ := by
  simp only [List.Forall]; repeat' constructor

/-- The program up to its region is the one line of host operations, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main Gen.hostOps0 Gen.hostOps0_sub hostOps0_fresh Gen.main_chain

/-- A buffer that is the result of none of the nine host operations is found by the region as it was launched:
    each operation writes its one result buffer, and the results are nine buffers other than the arguments. -/
theorem V_of_not_result (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    obtain ⟨h0, h1, h2, h3, h4, h5, h6, h7, h8⟩ := h
    simp only [Gen.hostOps0, List.Forall, StableHlo.unary_writes, StableHlo.nary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)
theorem V_main_arg2 (c : Dev nD) : V m c main_arg2 = m ((c : Thread nD τ).loc main_arg2) :=
  V_of_not_result m c main_arg2 (by decide)
theorem V_main_arg3 (c : Dev nD) : V m c main_arg3 = m ((c : Thread nD τ).loc main_arg3) :=
  V_of_not_result m c main_arg3 (by decide)
theorem V_main_arg4 (c : Dev nD) : V m c main_arg4 = m ((c : Thread nD τ).loc main_arg4) :=
  V_of_not_result m c main_arg4 (by decide)
theorem V_main_arg5 (c : Dev nD) : V m c main_arg5 = m ((c : Thread nD τ).loc main_arg5) :=
  V_of_not_result m c main_arg5 (by decide)
theorem V_main_arg6 (c : Dev nD) : V m c main_arg6 = m ((c : Thread nD τ).loc main_arg6) :=
  V_of_not_result m c main_arg6 (by decide)

/-! ## The windows' blocks -/

/-- Window `w`'s block at the point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at the point, whether the block was fetched there or was
    already in place: for any proof data whose array is `V`'s and whose body leaves the block where it is. The
    window is whole-array, never idle, and its index never moves. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the library's -/

/-- The library's post, read at the seven argument arrays, is the claim's: the first is the array of input
    window 0, which the region only reads; the other six are the array of no window, so they end as the region
    found them; and the region found each as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0 : Rect S1024x16 := Rect.unit (s := S1024x16) ![0, 0] S1024x16.size Gen.inb_S1024x16_S1024x16_0_0
abbrev r1 : Rect S16x128 := Rect.unit (s := S16x128) ![0, 0] S16x128.size Gen.inb_S16x128_S16x128_0_0
abbrev r2 : Rect S1x112 := Rect.unit (s := S1x112) ![0, 0] S1x112.size Gen.inb_S1x112_S1x112_0_0

/-- What the output window's buffer holds after the body, from the three input blocks: the one store, over the
    whole buffer, of the pure function of the three whole reads. -/
def out3 (x0 : Vec F S1024x16 .f32) (x1 : Vec F S16x128 .f32) (x2 : Vec F S1x112 .f32) : Vec F S1024x16 .f32 :=
  View.canon [⟨r0, Gen.k0_pay1 (View.ld x0 r0) (View.ld x1 r1) (View.ld x2 r2)⟩]

/-- The one store's rectangle is the whole buffer, so every index lies under it. -/
theorem cover3 (p0 : Vec F S1024x16 .f32) (y : S1024x16.Idx) :
    ∃ pc ∈ ([⟨r0, p0⟩] : List (View.Piece (Elt F) S1024x16 .f32)), y ∈ pc.1.set :=
  View.cover_of_tiled [⟨r0, p0⟩] S1024x16.size (by rfl) y

/-! ## The body's triple -/

set_option maxHeartbeats 1000000 in
/-- The body on whole buffers, the three inputs' at contents `x0 x1 x2` and the output's at anything, runs to a
    state holding the inputs' as they were and the output's at `out3 x0 x1 x2`. The read of the output buffer before
    the store names a value that is not used; the store then covers the buffer, so what it held does not matter. -/
theorem sound_kernel (c : Dev nD) (E : Set ℕ) (arg0 : Memref sig .tc .vmem S1024x16 .f32) (harg0 : arg0.IsWhole)
    (arg1 : Memref sig .tc .vmem S16x128 .f32) (harg1 : arg1.IsWhole) (arg2 : Memref sig .tc .vmem S1x112 .f32) (harg2 : arg2.IsWhole)
    (arg3 : Memref sig .tc .vmem S1024x16 .f32) (harg3 : arg3.IsWhole)
    (x0 : Vec F S1024x16 .f32) (x1 : Vec F S16x128 .f32) (x2 : Vec F S1x112 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc0__gnn_fused_kernel arg0 harg0 arg1 harg1 arg2 harg2 arg3 harg3) K := by
  simp only [Gen.cc0__gnn_fused_kernel_eq_skeleton]; unfold Gen.cc0__gnn_fused_kernel_skel
  simp only [Gen.k0_part1_eq_skeleton]; unfold Gen.k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one region on core `c`: the arrays as the region finds them; after the body each input's
    buffer at its block and the output's at `out3` of the three input blocks; the invariant is the class's (the
    core's other scoped buffers and its generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the region-entry contents (a projection; the fold `V` is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-! ## The body obligation -/

/-- What the body is called with at the point `t`: the invariant, what is owed, and each window's current staging
    buffer whole at what the library says it holds before the body; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at the point: the inputs' buffers hold their blocks, so `sound_kernel` applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions inside a metavariable's type
set_option backward.isDefEq.respectTransparency.types false in
/-- From any memory with zero counters, every weakly fair execution of the program terminates, and every final
    state has each array of the region at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program terminates without fault and its seven argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.FrameKI.lean ====
import proofs.«156742_g71322226917400_cont_sun_m_433_6_alg».proof.Proof.Gen.KernelIdeal.Launch
import proofs.«156742_g71322226917400_cont_sun_m_433_6_alg».proof.Proof.Gen.KernelIdeal.Skeleton
import proofs.«156742_g71322226917400_cont_sun_m_433_6_alg».proof.Proof.Gen.KernelIdeal.Points
import Idealize.ShloMosaic.Lib.Pipeline.FrameBody
import Idealize.ShloMosaic.Lib.Ring
import Idealize.ShloMosaic.Lib.Tactic

/-! # The frame of the program: it runs to the end and leaves its seven argument arrays as it found them

The program is a line of host operations (slices, transposes, two concatenations, a reshape) that prepare two
packed operand arrays, followed by one region without a grid whose four windows are whole arrays: three inputs
and one output. The body reads the three input buffers whole, reads the output buffer (a value nobody uses), and
overwrites the whole output buffer with a pure function of the three values read. So after the body the output
buffer holds that function of the input blocks whatever it held before, every input buffer is as it was, and no
argument array is written by anything: the host line writes only its own results, and the region writes back only
its output window. -/

-- membership in a rectangle with an axis of 1024 coordinates is decided by a structural recursion that goes one
-- level down per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- Core `c`'s buffers when the region is entered: the launch contents carried through the host operations. -/
abbrev V (c : Dev nD) (b : Ref sig .tc) : Buf (Elt F) ((c : Thread nD τ).loc b) :=
  StableHlo.after Gen.hostOps0 (fun b => m (c, b)) b

/-- No host operation allocates: each names buffers the program already has. -/
theorem hostOps0_fresh : (Gen.hostOps0 : List (HloOp τ sig (Elt F))).Forall fun op => op.fresh = ∅ := by
  simp only [List.Forall]; repeat' constructor

/-- The program up to its region is the one line of host operations, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main Gen.hostOps0 Gen.hostOps0_sub hostOps0_fresh Gen.main_chain

/-- A buffer that is the result of none of the nine host operations is found by the region as it was launched:
    each operation writes its one result buffer, and the results are nine buffers other than the arguments. -/
theorem V_of_not_result (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    obtain ⟨h0, h1, h2, h3, h4, h5, h6, h7, h8⟩ := h
    simp only [Gen.hostOps0, List.Forall, StableHlo.unary_writes, StableHlo.nary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_of_not_result m c main_arg0 (by decide)
theorem V_main_arg1 (c : Dev nD) : V m c main_arg1 = m ((c : Thread nD τ).loc main_arg1) :=
  V_of_not_result m c main_arg1 (by decide)
theorem V_main_arg2 (c : Dev nD) : V m c main_arg2 = m ((c : Thread nD τ).loc main_arg2) :=
  V_of_not_result m c main_arg2 (by decide)
theorem V_main_arg3 (c : Dev nD) : V m c main_arg3 = m ((c : Thread nD τ).loc main_arg3) :=
  V_of_not_result m c main_arg3 (by decide)
theorem V_main_arg4 (c : Dev nD) : V m c main_arg4 = m ((c : Thread nD τ).loc main_arg4) :=
  V_of_not_result m c main_arg4 (by decide)
theorem V_main_arg5 (c : Dev nD) : V m c main_arg5 = m ((c : Thread nD τ).loc main_arg5) :=
  V_of_not_result m c main_arg5 (by decide)
theorem V_main_arg6 (c : Dev nD) : V m c main_arg6 = m ((c : Thread nD τ).loc main_arg6) :=
  V_of_not_result m c main_arg6 (by decide)

/-! ## The windows' blocks -/

/-- Window `w`'s block at the point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at the point, whether the block was fetched there or was
    already in place: for any proof data whose array is `V`'s and whose body leaves the block where it is. The
    window is whole-array, never idle, and its index never moves. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claim's post from the library's -/

/-- The library's post, read at the seven argument arrays, is the claim's: the first is the array of input
    window 0, which the region only reads; the other six are the array of no window, so they end as the region
    found them; and the region found each as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0 : Rect S1024x16 := Rect.unit (s := S1024x16) ![0, 0] S1024x16.size Gen.inb_S1024x16_S1024x16_0_0
abbrev r1 : Rect S16x128 := Rect.unit (s := S16x128) ![0, 0] S16x128.size Gen.inb_S16x128_S16x128_0_0
abbrev r2 : Rect S1x112 := Rect.unit (s := S1x112) ![0, 0] S1x112.size Gen.inb_S1x112_S1x112_0_0

/-- What the output window's buffer holds after the body, from the three input blocks: the one store, over the
    whole buffer, of the pure function of the three whole reads. -/
def out3 (x0 : Vec F S1024x16 .f32) (x1 : Vec F S16x128 .f32) (x2 : Vec F S1x112 .f32) : Vec F S1024x16 .f32 :=
  View.canon [⟨r0, Gen.k0_pay1 (View.ld x0 r0) (View.ld x1 r1) (View.ld x2 r2)⟩]

/-- The one store's rectangle is the whole buffer, so every index lies under it. -/
theorem cover3 (p0 : Vec F S1024x16 .f32) (y : S1024x16.Idx) :
    ∃ pc ∈ ([⟨r0, p0⟩] : List (View.Piece (Elt F) S1024x16 .f32)), y ∈ pc.1.set :=
  View.cover_of_tiled [⟨r0, p0⟩] S1024x16.size (by rfl) y

/-! ## The body's triple -/

set_option maxHeartbeats 1000000 in
/-- The body on whole buffers, the three inputs' at contents `x0 x1 x2` and the output's at anything, runs to a
    state holding the inputs' as they were and the output's at `out3 x0 x1 x2`. The read of the output buffer before
    the store names a value that is not used; the store then covers the buffer, so what it held does not matter. -/
theorem sound_kernel (c : Dev nD) (E : Set ℕ) (arg0 : Memref sig .tc .vmem S1024x16 .f32) (harg0 : arg0.IsWhole)
    (arg1 : Memref sig .tc .vmem S16x128 .f32) (harg1 : arg1.IsWhole) (arg2 : Memref sig .tc .vmem S1x112 .f32) (harg2 : arg2.IsWhole)
    (arg3 : Memref sig .tc .vmem S1024x16 .f32) (harg3 : arg3.IsWhole)
    (x0 : Vec F S1024x16 .f32) (x1 : Vec F S16x128 .f32) (x2 : Vec F S1x112 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc0__gnn_fused_kernel arg0 harg0 arg1 harg1 arg2 harg2 arg3 harg3) K := by
  simp only [Gen.cc0__gnn_fused_kernel_eq_skeleton]; unfold Gen.cc0__gnn_fused_kernel_skel
  simp only [Gen.k0_part1_eq_skeleton]; unfold Gen.k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the one region on core `c`: the arrays as the region finds them; after the body each input's
    buffer at its block and the output's at `out3` of the three input blocks; the invariant is the class's (the
    core's other scoped buffers and its generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the region-entry contents (a projection; the fold `V` is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-! ## The body obligation -/

/-- What the body is called with at the point `t`: the invariant, what is owed, and each window's current staging
    buffer whole at what the library says it holds before the body; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same with each buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at the point: the inputs' buffers hold their blocks, so `sound_kernel` applies; the invariant and what
    is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions inside a metavariable's type
set_option backward.isDefEq.respectTransparency.types false in
/-- From any memory with zero counters, every weakly fair execution of the program terminates, and every final
    state has each array of the region at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program terminates without fault and its seven argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Pack.lean ====
/-
  The two packed operands the host side of the kernel's program builds before the call, and the call's arithmetic from
  its sliced operands on.

  `wpack` lays four weight matrices side by side in one 16 × 128 array, each transposed so that its rows are indexed by
  the contracted feature: columns 0–15 the first half of the message weights, 16–31 the second half, 32–79 the input-side
  gate weights, 80–127 the hidden-side gate weights. `bpack` lays the three bias vectors end to end as one 1 × 112 row:
  entries 0–15 the message bias, 16–63 the input-side gate bias, 64–111 the hidden-side gate bias.
  `payTail` is the body's value as a function of the node features and of the seven slices taken from those two
  arrays; the body's whole value is `payTail` at the slices (`pay_eq`, by unfolding).
-/
import proofs.«156742_g71322226917400_cont_sun_m_433_6_alg».proof.Proof.Gen.KernelIdeal.Skeleton

noncomputable section

namespace Cert.KernelIdeal.KValue

open Cert.KernelIdeal Cert.KernelIdeal.Gen Idealize.ShloMosaic Idealize.SL.Sem

variable {F : FTy → Type} [FloatOps F]

/-- The four weight matrices, transposed and laid side by side. -/
def wpack (x1 : (⟨S16x32, .f32⟩ : BufTy).Contents (Elt F)) (x3 x4 : (⟨S48x16, .f32⟩ : BufTy).Contents (Elt F)) :
    (⟨S16x128, .f32⟩ : BufTy).Contents (Elt F) :=
  concatenate S16x128 1
    [⟨S16x16, transpose S16x16 [1, 0] (extractStridedSlice S16x16 ![0, 0] x1 Gen.slices_S16x32_S16x16_0_0) Gen.transposes_S16x16_S16x16_1_0⟩,
     ⟨S16x16, transpose S16x16 [1, 0] (extractStridedSlice S16x16 ![0, 16] x1 Gen.slices_S16x32_S16x16_0_16) Gen.transposes_S16x16_S16x16_1_0⟩,
     ⟨S16x48, transpose S16x48 [1, 0] x3 Gen.transposes_S48x16_S16x48_1_0⟩,
     ⟨S16x48, transpose S16x48 [1, 0] x4 Gen.transposes_S48x16_S16x48_1_0⟩]
    Gen.concatenates_S16x16_S16x16_S16x48_S16x48_S16x128_d1

/-- The three bias vectors end to end, before the change of shape to one row. -/
def bcat (x2 : (⟨S16, .f32⟩ : BufTy).Contents (Elt F)) (x5 x6 : (⟨S48, .f32⟩ : BufTy).Contents (Elt F)) :
    (⟨S112, .f32⟩ : BufTy).Contents (Elt F) :=
  concatenate S112 0 [⟨S16, x2⟩, ⟨S48, x5⟩, ⟨S48, x6⟩] Gen.concatenates_S16_S48_S48_S112_d0

/-- The three bias vectors as one row. -/
def bpack (x2 : (⟨S16, .f32⟩ : BufTy).Contents (Elt F)) (x5 x6 : (⟨S48, .f32⟩ : BufTy).Contents (Elt F)) :
    (⟨S1x112, .f32⟩ : BufTy).Contents (Elt F) :=
  shapeCast S1x112 (bcat x2 x5 x6) Gen.shapeCasts_S112_S1x112

/-- The body's value from the node features `v0` and the seven slices: `v5`, `v6` the two halves of the message weights,
    `v7`, `v8` the gate weights, `v9` the message bias, `v10`, `v11` the gate biases. -/
def payTail (v0 : Vec F S1024x16 .f32) (v5 v6 : FVec F S16x16 .f32) (v7 v8 : FVec F S16x48 .f32) (v9 : FVec F S1x16 .f32)
    (v10 v11 : FVec F S1x48 .f32) : FVec F S1024x16 .f32 :=
  have v12 : FVec F S16 .f32 := multiReduction .add [0] S16 v0 0x00000000#32 reduces_S1024x16_S16 (.inl rfl) rfl
  have v13 : FVec F S1x16 .f32 := shapeCast S1x16 v12 shapeCasts_S16_S1x16
  have cst_5 : FVec F S1x16 .f32 := constant S1x16 .f32 0x00000000#32
  have v14 : FVec F S1x16 .f32 := matmul dot_S1x16_S16x16_S1x16_1_0_0_1_n_n none v13 v5 cst_5
  have cst_6 : F .f32 := Scalar.ofBits .f32 0x44800000#32
  have v15 : FVec F S1x16 .f32 := broadcast S1x16 cst_6
  have v16 : FVec F S1x16 .f32 := mulf v15 v9
  have v17 : FVec F S1x16 .f32 := addf v14 v16
  have cst_7 : FVec F S1024x16 .f32 := constant S1024x16 .f32 0x00000000#32
  have v18 : FVec F S1024x16 .f32 := matmul dot_S1024x16_S16x16_S1024x16_1_0_0_1_n_n none v0 v6 cst_7
  have cst_8 : F .f32 := Scalar.ofBits .f32 0x44800000#32
  have v19 : FVec F S1024x16 .f32 := broadcast S1024x16 cst_8
  have v20 : FVec F S1024x16 .f32 := mulf v19 v18
  have v21 : FVec F S1024x16 .f32 := broadcastTo S1024x16 v17 broadcasts_S1x16_S1024x16
  have v22 : FVec F S1024x16 .f32 := addf v20 v21
  have cst_9 : FVec F S1024x48 .f32 := constant S1024x48 .f32 0x00000000#32
  have v23 : FVec F S1024x48 .f32 := matmul dot_S1024x16_S16x48_S1024x48_1_0_0_1_n_n none v22 v7 cst_9
  have v24 : FVec F S1024x48 .f32 := broadcastTo S1024x48 v10 broadcasts_S1x48_S1024x48
  have v25 : FVec F S1024x48 .f32 := addf v23 v24
  have cst_10 : FVec F S1024x48 .f32 := constant S1024x48 .f32 0x00000000#32
  have v26 : FVec F S1024x48 .f32 := matmul dot_S1024x16_S16x48_S1024x48_1_0_0_1_n_n none v0 v8 cst_10
  have v27 : FVec F S1024x48 .f32 := broadcastTo S1024x48 v11 broadcasts_S1x48_S1024x48
  have v28 : FVec F S1024x48 .f32 := addf v26 v27
  have v29 : FVec F S1024x32 .f32 := extractStridedSlice S1024x32 ![0, 0] v25 slices_S1024x48_o0_0_S1024x32
  have v30 : FVec F S1024x32 .f32 := extractStridedSlice S1024x32 ![0, 0] v28 slices_S1024x48_o0_0_S1024x32
  have v31 : FVec F S1024x32 .f32 := addf v29 v30
  have v32 : FVec F S1024x32 .f32 := logistic v31
  have v33 : FVec F S1024x16 .f32 := extractStridedSlice S1024x16 ![0, 0] v32 slices_S1024x32_o0_0_S1024x16
  have v34 : FVec F S1024x16 .f32 := extractStridedSlice S1024x16 ![0, 16] v32 slices_S1024x32_o0_16_S1024x16
  have v35 : FVec F S1024x16 .f32 := extractStridedSlice S1024x16 ![0, 32] v25 slices_S1024x48_o0_32_S1024x16
  have v36 : FVec F S1024x16 .f32 := extractStridedSlice S1024x16 ![0, 32] v28 slices_S1024x48_o0_32_S1024x16
  have v37 : FVec F S1024x16 .f32 := mulf v33 v36
  have v38 : FVec F S1024x16 .f32 := addf v35 v37
  have v39 : FVec F S1024x16 .f32 := tanh v38
  have cst_11 : F .f32 := Scalar.ofBits .f32 0x3F800000#32
  have v40 : FVec F S1024x16 .f32 := broadcast S1024x16 cst_11
  have v41 : FVec F S1024x16 .f32 := subf v40 v34
  have v42 : FVec F S1024x16 .f32 := mulf v41 v39
  have v43 : FVec F S1024x16 .f32 := mulf v34 v0
  have v44 : FVec F S1024x16 .f32 := addf v42 v43
  v44

/-- The seven slices of the two loaded arrays. -/
abbrev sl5 (v1 : Vec F S16x128 .f32) : FVec F S16x16 .f32 := extractStridedSlice S16x16 ![0, 0] (shapeCast S16x128 v1 Gen.shapeCasts_S16x128_S16x128) Gen.slices_S16x128_o0_0_S16x16
abbrev sl6 (v1 : Vec F S16x128 .f32) : FVec F S16x16 .f32 := extractStridedSlice S16x16 ![0, 16] (shapeCast S16x128 v1 Gen.shapeCasts_S16x128_S16x128) Gen.slices_S16x128_o0_16_S16x16
abbrev sl7 (v1 : Vec F S16x128 .f32) : FVec F S16x48 .f32 := extractStridedSlice S16x48 ![0, 32] (shapeCast S16x128 v1 Gen.shapeCasts_S16x128_S16x128) Gen.slices_S16x128_o0_32_S16x48
abbrev sl8 (v1 : Vec F S16x128 .f32) : FVec F S16x48 .f32 := extractStridedSlice S16x48 ![0, 80] (shapeCast S16x128 v1 Gen.shapeCasts_S16x128_S16x128) Gen.slices_S16x128_o0_80_S16x48
abbrev sl9 (v3 : Vec F S1x112 .f32) : FVec F S1x16 .f32 := extractStridedSlice S1x16 ![0, 0] (shapeCast S1x112 v3 Gen.shapeCasts_S1x112_S1x112) Gen.slices_S1x112_o0_0_S1x16
abbrev sl10 (v3 : Vec F S1x112 .f32) : FVec F S1x48 .f32 := extractStridedSlice S1x48 ![0, 16] (shapeCast S1x112 v3 Gen.shapeCasts_S1x112_S1x112) Gen.slices_S1x112_o0_16_S1x48
abbrev sl11 (v3 : Vec F S1x112 .f32) : FVec F S1x48 .f32 := extractStridedSlice S1x48 ![0, 64] (shapeCast S1x112 v3 Gen.shapeCasts_S1x112_S1x112) Gen.slices_S1x112_o0_64_S1x48

/-- The body's value is `payTail` at the slices of its two packed operands. -/
theorem pay_eq (v0 : Vec F S1024x16 .f32) (v1 : Vec F S16x128 .f32) (v3 : Vec F S1x112 .f32) :
    Gen.k0_pay1 v0 v1 v3 = payTail v0 (sl5 v1) (sl6 v1) (sl7 v1) (sl8 v1) (sl9 v3) (sl10 v3) (sl11 v3) := rfl

end Cert.KernelIdeal.KValue

end
-- ==== Proof.KernelRun.lean ====
/-
  The kernel program's result array after its run, as a function of the seven argument arrays.

  The region has no grid and every window is its whole array, so the one point's block of each input IS the array the
  region finds, and what the one point writes back IS the whole output array: after the run the output array holds the
  body's value of the three arrays the region finds. Of those, the node features are as launched, and the two packed
  operands are what the host operations before the region computed from the launched weights and biases: the
  concatenation of the four transposed weight blocks, and the three bias vectors end to end as one row.
-/
import proofs.«156742_g71322226917400_cont_sun_m_433_6_alg».proof.Proof.FrameKI
import proofs.«156742_g71322226917400_cont_sun_m_433_6_alg».proof.Proof.Pack
import Idealize.ShloMosaic.Lib.Pipeline.Value
import Idealize.ShloMosaic.Lib.StableHlo.Run

set_option maxRecDepth 16384

noncomputable section

namespace Cert.KernelIdeal.KRun

open Idealize.ShloMosaic Idealize.ShloMosaic.TcCoe Idealize.SL.Sem
open Idealize.ShloMosaic.Pipeline (Dat Cfg Window)
open Cert.KernelIdeal Cert.KernelIdeal.Gen Cert.KernelIdeal.Hand Cert.KernelIdeal.KValue

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## A whole-array window's block is the array

Each window's block index is 0 on both axes and its block has the array's extents, so coordinate `y` inside the block
is coordinate `0 · extent + y = y` of the array. -/

theorem emb_whole_0 (t : Fin cfg0.N) (y : ((cfg0.win 0).xblock (cfg0.grid.coords t)).Idx) :
    ((cfg0.win 0).blk t).view.emb y = y := by
  funext a; apply Fin.ext
  match a with
  | ⟨0, _⟩ => show win0_0.index t (0 : Fin 2) * 1024 + 1 * (y 0).val = (y 0).val; rw [show win0_0.index t (0 : Fin 2) = 0 from rfl]; omega
  | ⟨1, _⟩ => show win0_0.index t (1 : Fin 2) * 16 + 1 * (y 1).val = (y 1).val; rw [show win0_0.index t (1 : Fin 2) = 0 from rfl]; omega

theorem emb_whole_1 (t : Fin cfg0.N) (y : ((cfg0.win 1).xblock (cfg0.grid.coords t)).Idx) :
    ((cfg0.win 1).blk t).view.emb y = y := by
  funext a; apply Fin.ext
  match a with
  | ⟨0, _⟩ => show win0_1.index t (0 : Fin 2) * 16 + 1 * (y 0).val = (y 0).val; rw [show win0_1.index t (0 : Fin 2) = 0 from rfl]; omega
  | ⟨1, _⟩ => show win0_1.index t (1 : Fin 2) * 128 + 1 * (y 1).val = (y 1).val; rw [show win0_1.index t (1 : Fin 2) = 0 from rfl]; omega

theorem emb_whole_2 (t : Fin cfg0.N) (y : ((cfg0.win 2).xblock (cfg0.grid.coords t)).Idx) :
    ((cfg0.win 2).blk t).view.emb y = y := by
  funext a; apply Fin.ext
  match a with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 112 + 1 * (y 1).val = (y 1).val; rw [show win0_2.index t (1 : Fin 2) = 0 from rfl]; omega

theorem emb_whole_3 (t : Fin cfg0.N) (y : ((cfg0.win 3).xblock (cfg0.grid.coords t)).Idx) :
    ((cfg0.win 3).blk t).view.emb y = y := by
  funext a; apply Fin.ext
  match a with
  | ⟨0, _⟩ => show win0_3.index t (0 : Fin 2) * 1024 + 1 * (y 0).val = (y 0).val; rw [show win0_3.index t (0 : Fin 2) = 0 from rfl]; omega
  | ⟨1, _⟩ => show win0_3.index t (1 : Fin 2) * 16 + 1 * (y 1).val = (y 1).val; rw [show win0_3.index t (1 : Fin 2) = 0 from rfl]; omega

/-- The node features' block at the point is the array the region finds. -/
theorem iblk_0 (c : Dev nD) (t : Fin cfg0.N) : iblk m c 0 t = V m c main_arg0 := by
  funext y
  unfold iblk
  show V m c main_arg0 (((cfg0.win 0).blk t).view.emb y) = V m c main_arg0 y
  rw [emb_whole_0]

/-- The packed weights' block at the point is the array the region finds. -/
theorem iblk_1 (c : Dev nD) (t : Fin cfg0.N) : iblk m c 1 t = V m c main_v6 := by
  funext y
  unfold iblk
  show V m c main_v6 (((cfg0.win 1).blk t).view.emb y) = V m c main_v6 y
  rw [emb_whole_1]

/-- The packed biases' block at the point is the array the region finds. -/
theorem iblk_2 (c : Dev nD) (t : Fin cfg0.N) : iblk m c 2 t = V m c main_v8 := by
  funext y
  unfold iblk
  show V m c main_v8 (((cfg0.win 2).blk t).view.emb y) = V m c main_v8 y
  rw [emb_whole_2]

/-! ## The output array after the run -/

/-- The body's value of the three arrays the region finds. -/
abbrev G (c : Dev nD) : Vec F S1024x16 .f32 := Gen.k0_pay1 (V m c main_arg0) (V m c main_v6) (V m c main_v8)

/-- What the point writes back is its block — the whole — of `G`. -/
theorem flushed3_eq (c : Dev nD) (t : Fin cfg0.N) :
    (dats m 0 c).flushed 3 t = ((cfg0.win 3).blk t).view.read (Elt F) (G m c) := by
  show (cfg0.win 3).cut (grid0.coords t) ((dats m 0 c).after 3 t) = _
  rw [after0_3]
  unfold out3
  rw [View.canon_unit_zero hz]
  simp only [View.ld_unit_zero (S := S1024x16) hz, View.ld_unit_zero (S := S16x128) hz, View.ld_unit_zero (S := S1x112) hz]
  rw [iblk_0, iblk_1, iblk_2]
  funext y
  show G m c y = G m c (((cfg0.win 3).blk t).view.emb y)
  rw [emb_whole_3]

/-- Every index of the output array lies in the one point's block. -/
theorem covered3 (i : S1024x16.Idx) :
    ∃ t : Fin cfg0.N, (cfg0.win 3).flush t = true ∧ i ∈ ((cfg0.win 3).blk t).view.set := by
  refine ⟨t0_0, flush0_3 t0_0, ?_⟩
  show i ∈ ((View.whole main_v9).slice (win0_3.rect t0_0)).set
  rw [View.set_slice_whole, Rect.mem_set_unit]
  intro a
  match a with
  | ⟨0, _⟩ =>
    show win0_3.index t0_0 (0 : Fin 2) * 1024 ≤ (i 0).val ∧ (i 0).val < win0_3.index t0_0 (0 : Fin 2) * 1024 + 1024
    rw [show win0_3.index t0_0 (0 : Fin 2) = 0 from rfl]
    have h0 : (i 0).val < 1024 := (i 0).isLt
    omega
  | ⟨1, _⟩ =>
    show win0_3.index t0_0 (1 : Fin 2) * 16 ≤ (i 1).val ∧ (i 1).val < win0_3.index t0_0 (1 : Fin 2) * 16 + 16
    rw [show win0_3.index t0_0 (1 : Fin 2) = 0 from rfl]
    have h1 : (i 1).val < 16 := (i 1).isLt
    omega

/-- The output array after the run is `G`. -/
theorem final3 (c : Dev nD) : (dats m 0 c).arrAt 3 cfg0.N = G m c :=
  (dats m 0 c).arrAt_eq_of_cover 3 _ (fun t _ => flushed3_eq m c t) (fun i => covered3 i)

/-! ## The two packed operands as the host operations leave them -/

/-- The packed weights the region finds: the four transposed blocks of the launched weights side by side. -/
theorem V_main_v6 (c : Dev nD) :
    (V m c main_v6 : (⟨S16x128, .f32⟩ : BufTy).Contents (Elt F))
      = wpack (m ((c : Thread nD τ).loc main_arg1)) (m ((c : Thread nD τ).loc main_arg3)) (m ((c : Thread nD τ).loc main_arg4)) := by
  dsimp only [V, Gen.hostOps0]
  after_results
  rfl

/-- The packed biases the region finds: the three launched bias vectors end to end, as one row. -/
theorem V_main_v8 (c : Dev nD) :
    (V m c main_v8 : (⟨S1x112, .f32⟩ : BufTy).Contents (Elt F))
      = bpack (m ((c : Thread nD τ).loc main_arg2)) (m ((c : Thread nD τ).loc main_arg5)) (m ((c : Thread nD τ).loc main_arg6)) := by
  dsimp only [V, Gen.hostOps0]
  after_results
  rfl

/-! ## The run, read -/

/-- Every weakly fair execution of the program terminates with the result array at the body's value of the launched node
    features and of the two packed operands built from the launched weights and biases, the arguments unchanged. -/
theorem value_run : θ_run defs (onTc (τ := τ) (main (F := F))) ⟨m, fun _ => 0, ρ⟩ fun r => ∀ c : Dev nD,
      r.2.mem ((c.tc : Thread nD τ).loc main_v9)
        = Gen.k0_pay1 (m ((c.tc : Thread nD τ).loc main_arg0))
            (wpack (m ((c.tc : Thread nD τ).loc main_arg1)) (m ((c.tc : Thread nD τ).loc main_arg3)) (m ((c.tc : Thread nD τ).loc main_arg4)))
            (bpack (m ((c.tc : Thread nD τ).loc main_arg2)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).1 3).trans ((final3 m c).trans (by
        show Gen.k0_pay1 (V m c main_arg0) (V m c main_v6) (V m c main_v8) = _
        rw [V_main_arg0 m c, V_main_v6 m c, V_main_v8 m c])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KRun

end
-- ==== Proof.Spec.lean ====
/-
  The mathematics both programs compute, written once over plain coordinate functions into the extended reals.

  A complete graph on 1024 nodes: edge (s, d) carries the message  m(s,d) = [h_s | h_d] · W_j + b_j  (the 32 entries
  of row j of W against the 16 features of the source followed by the 16 of the destination), and node d aggregates the
  messages of its 1024 incoming edges. `aggR` is that sum as it stands; `aggK` is its closed form
      1024 · (h_d · W_j[16:32])  +  ((Σ_s h_s) · W_j[0:16]  +  1024 · b_j),
  which is the same number whenever every entry is a real (distributivity fails at the infinities, so the identity is
  stated for finite entries only: Proof/Algebra.lean). `gru` is the gated recurrent update of h from an aggregate:
  reset and update gates through the logistic function, the candidate through tanh.
-/
import Idealize.ShloMosaic.PureOps.Ideal
import Idealize.ShloMosaic.Lib.ValueIdx

noncomputable section

open scoped BigOperators

namespace Cert.Gnn

open Idealize.ShloMosaic Idealize.ShloMosaic.ValueIdx

/-- A rank-2 array read by its two coordinates. -/
abbrev arr2 {n0 n1 : Nat} (x : (⟨2, ![n0, n1]⟩ : Shape).Idx → EReal) : Fin n0 → Fin n1 → EReal := fun a b => x (ix2 a b)
/-- A rank-1 array read by its coordinate. -/
abbrev arr1 {n : Nat} (x : (⟨1, ![n]⟩ : Shape).Idx → EReal) : Fin n → EReal := fun a => x (ix1 a)

/-- Column `k` of the second half of a 32-wide row: entry `16 + k`. -/
abbrev hi16 (k : Fin 16) : Fin 32 := ⟨16 + k.val, by omega⟩
/-- Column `k` of the first half of a 32-wide row. -/
abbrev lo16 (k : Fin 16) : Fin 32 := ⟨k.val, by omega⟩
/-- Gate `g` (0 reset, 1 update, 2 candidate) of feature `j` among the 48 stacked gate rows: row `16 g + j`. -/
abbrev gate (g : Fin 3) (j : Fin 16) : Fin 48 := ⟨16 * g.val + j.val, by omega⟩

section
variable (h : Fin 1024 → Fin 16 → EReal) (W : Fin 16 → Fin 32 → EReal) (b : Fin 16 → EReal)

/-- The aggregate in closed form (what the fused kernel evaluates). -/
def aggK (d : Fin 1024) (j : Fin 16) : EReal :=
  ((1024 : ℝ) : EReal) * (∑ k : Fin 16, h d k * W j (hi16 k))
    + ((∑ k : Fin 16, (∑ s : Fin 1024, h s k) * W j (lo16 k)) + ((1024 : ℝ) : EReal) * b j)

/-- Feature `k` of edge (s, d): the source's features, then the destination's. -/
def edge (s d : Fin 1024) (k : Fin 32) : EReal :=
  if hk : k.val < 16 then h s ⟨k.val, hk⟩ else h d ⟨k.val - 16, by omega⟩

/-- The aggregate as the sum of the incoming edges' messages (what the reference evaluates). -/
def aggR (d : Fin 1024) (j : Fin 16) : EReal :=
  ∑ s : Fin 1024, ((∑ k : Fin 32, edge h s d k * W j k) + b j)
end

section
variable (h : Fin 1024 → Fin 16 → EReal) (Wih Whh : Fin 48 → Fin 16 → EReal) (bih bhh : Fin 48 → EReal)
  (agg : Fin 1024 → Fin 16 → EReal)

/-- Input-side gate pre-activation `c` of node `d`: the aggregate against row `c` of `Wih`, plus the bias. -/
def gi (d : Fin 1024) (c : Fin 48) : EReal := (∑ k : Fin 16, agg d k * Wih c k) + bih c
/-- Hidden-side gate pre-activation `c` of node `d`: the node's own features against row `c` of `Whh`, plus the bias. -/
def gh (d : Fin 1024) (c : Fin 48) : EReal := (∑ k : Fin 16, h d k * Whh c k) + bhh c

/-- The gated recurrent update of feature `j` of node `d`. -/
def gru (d : Fin 1024) (j : Fin 16) : EReal :=
  (1 - Ideal.logistic (gi Wih bih agg d (gate 1 j) + gh h Whh bhh d (gate 1 j)))
      * Ideal.tanh (gi Wih bih agg d (gate 2 j)
          + Ideal.logistic (gi Wih bih agg d (gate 0 j) + gh h Whh bhh d (gate 0 j)) * gh h Whh bhh d (gate 2 j))
    + Ideal.logistic (gi Wih bih agg d (gate 1 j) + gh h Whh bhh d (gate 1 j)) * h d j
end

end Cert.Gnn

end
-- ==== Proof.PackReads.lean ====
/-
  What each slice of the two packed operands holds, index by index.

  The 16 × 128 weight array is four blocks laid side by side along the columns, of widths 16, 16, 48 and 48, so the
  blocks start at columns 0, 16, 32 and 80. Each block is a transposed matrix: row k, column j of a block is the source
  matrix at row j, column k. The first two blocks are the left and right 16-column halves of the 16 × 32 message weights,
  so they read that matrix at columns k and 16 + k; the last two are the two 48 × 16 gate weight matrices.

  The 1 × 112 bias row is three vectors end to end, of lengths 16, 48 and 48, starting at entries 0, 16 and 64; turning
  the 112-long vector into a one-row matrix keeps every entry's flat position, so entry (0, c) of the row is entry c of
  the vector.

  The kernel body takes its seven operands back out as windows of exactly those widths at exactly those starts (through
  a change of shape that changes nothing), so each window is one of the seven sources again.
-/
import proofs.«156742_g71322226917400_cont_sun_m_433_6_alg».proof.Proof.Pack
import proofs.«156742_g71322226917400_cont_sun_m_433_6_alg».proof.Proof.Spec
import Idealize.ShloMosaic.Lib.ValueIdx
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx Cert.Gnn

variable {F : FTy → Type} [FloatOps F]

section Weights
variable (x1 : (⟨S16x32, .f32⟩ : BufTy).Contents (Elt F)) (x3 x4 : (⟨S48x16, .f32⟩ : BufTy).Contents (Elt F))

/-- Columns 0–15 of the packed weights: the first block starts at column 0 and is the transposed left half of the
    message weights, so row `k`, column `j` is that matrix at row `j`, column `k`. -/
theorem wpack_apply_lo (k j : Fin 16) (c : Fin 128) (hc : c.val = j.val) :
    wpack x1 x3 x4 (ix2 k c) = x1 (ix2 j (lo16 k)) := by
  unfold wpack
  -- the first piece, nothing before it
  refine (concatenate_apply_piece _ _ _ (ix2 k c) 0 (by show 0 < 4; omega) S16x16 _ rfl rfl 0 rfl (ix2 k j)
    (fun b hb => match b with
      | ⟨0, _⟩ => rfl
      | ⟨1, _⟩ => absurd rfl hb)
    (by show 0 + j.val = c.val; omega)).trans ?_
  -- the transpose swaps the two coordinates
  refine (transpose_apply _ _ _ (ix2 k j) (ix2 j k) (fun b => match b with | ⟨0, _⟩ => rfl | ⟨1, _⟩ => rfl)).trans ?_
  -- the left half: columns from 0
  exact extractStridedSlice_apply _ _ _ (ix2 j k) (ix2 j (lo16 k)) (fun a => match a with
    | ⟨0, _⟩ => by show j.val = 0 + j.val; omega
    | ⟨1, _⟩ => by show k.val = 0 + k.val; omega)

/-- Columns 16–31: the second block starts at column 16 and is the transposed right half of the message weights, so
    row `k`, column `16 + j` is that matrix at row `j`, column `16 + k`. -/
theorem wpack_apply_hi (k j : Fin 16) (c : Fin 128) (hc : c.val = 16 + j.val) :
    wpack x1 x3 x4 (ix2 k c) = x1 (ix2 j (hi16 k)) := by
  unfold wpack
  -- the second piece, sixteen columns before it
  refine (concatenate_apply_piece _ _ _ (ix2 k c) 1 (by show 1 < 4; omega) S16x16 _ rfl rfl 16 rfl (ix2 k j)
    (fun b hb => match b with
      | ⟨0, _⟩ => rfl
      | ⟨1, _⟩ => absurd rfl hb)
    (by show 16 + j.val = c.val; omega)).trans ?_
  refine (transpose_apply _ _ _ (ix2 k j) (ix2 j k) (fun b => match b with | ⟨0, _⟩ => rfl | ⟨1, _⟩ => rfl)).trans ?_
  -- the right half: columns from 16
  exact extractStridedSlice_apply _ _ _ (ix2 j k) (ix2 j (hi16 k)) (fun a => match a with
    | ⟨0, _⟩ => by show j.val = 0 + j.val; omega
    | ⟨1, _⟩ => by show 16 + k.val = 16 + k.val; omega)

/-- Columns 32–79: the third block starts at column 32 (two blocks of 16 before it) and is the transposed input-side
    gate weights. -/
theorem wpack_apply_ih (k : Fin 16) (d : Fin 48) (c : Fin 128) (hc : c.val = 32 + d.val) :
    wpack x1 x3 x4 (ix2 k c) = x3 (ix2 d k) := by
  unfold wpack
  refine (concatenate_apply_piece _ _ _ (ix2 k c) 2 (by show 2 < 4; omega) S16x48 _ rfl rfl 32 rfl (ix2 k d)
    (fun b hb => match b with
      | ⟨0, _⟩ => rfl
      | ⟨1, _⟩ => absurd rfl hb)
    (by show 32 + d.val = c.val; omega)).trans ?_
  exact transpose_apply _ _ _ (ix2 k d) (ix2 d k) (fun b => match b with | ⟨0, _⟩ => rfl | ⟨1, _⟩ => rfl)

/-- Columns 80–127: the fourth block starts at column 80 (16 + 16 + 48 before it) and is the transposed hidden-side
    gate weights. -/
theorem wpack_apply_hh (k : Fin 16) (d : Fin 48) (c : Fin 128) (hc : c.val = 80 + d.val) :
    wpack x1 x3 x4 (ix2 k c) = x4 (ix2 d k) := by
  unfold wpack
  refine (concatenate_apply_piece _ _ _ (ix2 k c) 3 (by show 3 < 4; omega) S16x48 _ rfl rfl 80 rfl (ix2 k d)
    (fun b hb => match b with
      | ⟨0, _⟩ => rfl
      | ⟨1, _⟩ => absurd rfl hb)
    (by show 80 + d.val = c.val; omega)).trans ?_
  exact transpose_apply _ _ _ (ix2 k d) (ix2 d k) (fun b => match b with | ⟨0, _⟩ => rfl | ⟨1, _⟩ => rfl)

/-- A window of the packed weights starting at column `o`: row `k`, column `j` of the window is row `k`, column
    `o + j` of the array (the change of shape in between is to the same shape, so it is the identity). -/
theorem wslice_apply {w : Nat} (o : Nat) (v : Vec F S16x128 .f32) (hS : S16x128.Slices ![0, o] (⟨2, ![16, w]⟩ : Shape))
    (k : Fin 16) (j : Fin w) (c : Fin 128) (hc : c.val = o + j.val) :
    extractStridedSlice (⟨2, ![16, w]⟩ : Shape) ![0, o] (shapeCast S16x128 v Gen.shapeCasts_S16x128_S16x128) hS (ix2 k j)
      = v (ix2 k c) := by
  rw [shapeCast_self]
  exact extractStridedSlice_apply _ _ _ (ix2 k j) (ix2 k c) (fun a => match a with
    | ⟨0, _⟩ => by show k.val = 0 + k.val; omega
    | ⟨1, _⟩ => by show c.val = o + j.val; omega)

theorem sl5_apply (k j : Fin 16) : sl5 (wpack x1 x3 x4) (ix2 k j) = x1 (ix2 j (lo16 k)) :=
  (wslice_apply 0 _ _ k j ⟨j.val, by omega⟩ (by show j.val = 0 + j.val; omega)).trans
    (wpack_apply_lo x1 x3 x4 k j _ rfl)

theorem sl6_apply (k j : Fin 16) : sl6 (wpack x1 x3 x4) (ix2 k j) = x1 (ix2 j (hi16 k)) :=
  (wslice_apply 16 _ _ k j ⟨16 + j.val, by omega⟩ rfl).trans (wpack_apply_hi x1 x3 x4 k j _ rfl)

theorem sl7_apply (k : Fin 16) (c : Fin 48) : sl7 (wpack x1 x3 x4) (ix2 k c) = x3 (ix2 c k) :=
  (wslice_apply 32 _ _ k c ⟨32 + c.val, by omega⟩ rfl).trans (wpack_apply_ih x1 x3 x4 k c _ rfl)

theorem sl8_apply (k : Fin 16) (c : Fin 48) : sl8 (wpack x1 x3 x4) (ix2 k c) = x4 (ix2 c k) :=
  (wslice_apply 80 _ _ k c ⟨80 + c.val, by omega⟩ rfl).trans (wpack_apply_hh x1 x3 x4 k c _ rfl)

end Weights

section Biases
variable (x2 : (⟨S16, .f32⟩ : BufTy).Contents (Elt F)) (x5 x6 : (⟨S48, .f32⟩ : BufTy).Contents (Elt F))

/-- Entries 0–15 of the three biases laid end to end: the message bias. -/
theorem bcat_apply_msg (j : Fin 16) (c : Fin 112) (hc : c.val = j.val) : bcat x2 x5 x6 (ix1 c) = x2 (ix1 j) := by
  unfold bcat
  exact concatenate_apply_piece _ _ _ (ix1 c) 0 (by show 0 < 3; omega) S16 _ rfl rfl 0 rfl (ix1 j)
    (fun b hb => match b with | ⟨0, _⟩ => absurd rfl hb)
    (by show 0 + j.val = c.val; omega)

/-- Entries 16–63: the input-side gate bias, sixteen entries before it. -/
theorem bcat_apply_ih (d : Fin 48) (c : Fin 112) (hc : c.val = 16 + d.val) : bcat x2 x5 x6 (ix1 c) = x5 (ix1 d) := by
  unfold bcat
  exact concatenate_apply_piece _ _ _ (ix1 c) 1 (by show 1 < 3; omega) S48 _ rfl rfl 16 rfl (ix1 d)
    (fun b hb => match b with | ⟨0, _⟩ => absurd rfl hb)
    (by show 16 + d.val = c.val; omega)

/-- Entries 64–111: the hidden-side gate bias, 16 + 48 entries before it. -/
theorem bcat_apply_hh (d : Fin 48) (c : Fin 112) (hc : c.val = 64 + d.val) : bcat x2 x5 x6 (ix1 c) = x6 (ix1 d) := by
  unfold bcat
  exact concatenate_apply_piece _ _ _ (ix1 c) 2 (by show 2 < 3; omega) S48 _ rfl rfl 64 rfl (ix1 d)
    (fun b hb => match b with | ⟨0, _⟩ => absurd rfl hb)
    (by show 64 + d.val = c.val; omega)

/-- The one-row form keeps the flat position: entry `(0, c)` of the row is entry `c` of the vector. -/
theorem bpack_apply (c : Fin 112) : bpack x2 x5 x6 (ix2 (0 : Fin 1) c) = bcat x2 x5 x6 (ix1 c) := by
  unfold bpack
  refine shapeCast_apply _ _ (ix2 (0 : Fin 1) c) (ix1 c) ?_
  rw [Shape.rowMajor_val_one, Shape.rowMajor_val_two]
  show c.val = 0 * 112 + c.val
  omega

/-- A window of the packed bias row starting at entry `o`. -/
theorem bslice_apply {w : Nat} (o : Nat) (v : Vec F S1x112 .f32) (hS : S1x112.Slices ![0, o] (⟨2, ![1, w]⟩ : Shape))
    (j : Fin w) (c : Fin 112) (hc : c.val = o + j.val) :
    extractStridedSlice (⟨2, ![1, w]⟩ : Shape) ![0, o] (shapeCast S1x112 v Gen.shapeCasts_S1x112_S1x112) hS (ix2 (0 : Fin 1) j)
      = v (ix2 (0 : Fin 1) c) := by
  rw [shapeCast_self]
  exact extractStridedSlice_apply _ _ _ (ix2 (0 : Fin 1) j) (ix2 (0 : Fin 1) c) (fun a => match a with
    | ⟨0, _⟩ => by show 0 = 0 + 0; omega
    | ⟨1, _⟩ => by show c.val = o + j.val; omega)

theorem sl9_apply (j : Fin 16) : sl9 (bpack x2 x5 x6) (ix2 (0 : Fin 1) j) = x2 (ix1 j) :=
  ((bslice_apply 0 _ _ j ⟨j.val, by omega⟩ (by show j.val = 0 + j.val; omega)).trans (bpack_apply x2 x5 x6 _)).trans
    (bcat_apply_msg x2 x5 x6 j _ rfl)

theorem sl10_apply (c : Fin 48) : sl10 (bpack x2 x5 x6) (ix2 (0 : Fin 1) c) = x5 (ix1 c) :=
  ((bslice_apply 16 _ _ c ⟨16 + c.val, by omega⟩ rfl).trans (bpack_apply x2 x5 x6 _)).trans
    (bcat_apply_ih x2 x5 x6 c _ rfl)

theorem sl11_apply (c : Fin 48) : sl11 (bpack x2 x5 x6) (ix2 (0 : Fin 1) c) = x6 (ix1 c) :=
  ((bslice_apply 64 _ _ c ⟨64 + c.val, by omega⟩ rfl).trans (bpack_apply x2 x5 x6 _)).trans
    (bcat_apply_hh x2 x5 x6 c _ rfl)

end Biases

end Cert.KernelIdeal.KValue

end
-- ==== Proof.Consts.lean ====
/-
  The float constants the two programs and the precondition spell, as the extended reals their bit patterns denote:
  1.0, 1024.0 (the number of nodes, as the kernel multiplies by it) and +infinity (the bound in "every input is finite").
  Stated once, here, so that no other module of the proof opens the definition of a bit pattern's value.
-/
import Idealize.ShloMosaic.PureOps.Ideal

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `+inf` denotes the top of the extended reals. -/
theorem ofBits_inf : Ideal.ofBits .f32 0x7F800000#32 = (⊤ : EReal) := by
  simp [Ideal.ofBits, Ideal.ieee]

end Cert.Consts

end
-- ==== Proof.PayTail.lean ====
/-
  The fused update's arithmetic read at one entry.

  For node `d` and feature `j` the body forms, from the node features `h` (1024 rows of 16) and its sliced weights:
  the column sums  S_k = Σ_s h[s,k];  the shared row  base_j = Σ_k S_k · Wsrc[k,j] + 1024 · bmsg_j;  the aggregate
  agg[d,j] = 1024 · (Σ_k h[d,k] · Wdst[k,j]) + base_j;  the two 48-wide pre-activations
  gi[d,c] = Σ_k agg[d,k] · Wih[k,c] + bih_c  and  gh[d,c] = Σ_k h[d,k] · Whh[k,c] + bhh_c;  and from their three
  16-wide column groups the reset gate r = σ(gi₀ + gh₀), the update gate z = σ(gi₁ + gh₁), the candidate
  n = tanh(gi₂ + r · gh₂) and the result (1 − z) · n + z · h[d,j].

  Every step is either entrywise, or a contraction over one axis of 16 (or 1024) coordinates read as a finite sum, or
  a change of layout that reads one entry of its operand. Each is stated here at an entry named by its two
  coordinates; the order of factors and summands is the body's own, so no algebraic law of the extended reals
  beyond the value of the two literals 1024 and 1 is used.
-/
import proofs.«156742_g71322226917400_cont_sun_m_433_6_alg».proof.Proof.Pack
import proofs.«156742_g71322226917400_cont_sun_m_433_6_alg».proof.Proof.Spec
import proofs.«156742_g71322226917400_cont_sun_m_433_6_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.ValueIdx Cert.Gnn

/-- The aggregate from the sliced operands: 1024 times node `d`'s own features against the destination half of the
    message weights, plus the shared row (the column sums against the source half, plus 1024 times the bias). -/
def aggT (v0 : Vec Ideal S1024x16 .f32) (v5 v6 : FVec Ideal S16x16 .f32) (v9 : FVec Ideal S1x16 .f32) (d : Fin 1024) (j : Fin 16) : EReal :=
  ((1024 : ℝ) : EReal) * (∑ k : Fin 16, v0 (ix2 d k) * v6 (ix2 k j))
    + ((∑ k : Fin 16, (∑ s : Fin 1024, v0 (ix2 s k)) * v5 (ix2 k j)) + ((1024 : ℝ) : EReal) * v9 (ix2 (0 : Fin 1) j))

namespace PT

/-! ## A product read at an entry

For each of the three products the body forms, the contracted axis is the second of the left factor and the first of
the right one; the free axes are the first of the left and the second of the right. The four facts below say that
for one set of dimension numbers, axis by axis; with them the sum over the contraction's index set becomes the sum
over the 16 values of its one coordinate. -/

/-! ### The product of a 1 × 16 array with a 16 × 16 array -/

theorem lhsA_0 (i : S1x16.Idx) (q : dot_S1x16_S16x16_S1x16_1_0_0_1_n_n.contr.Idx) :
    (dot_S1x16_S16x16_S1x16_1_0_0_1_n_n.lhsIdx i q 0).val = (i 0).val := by
  unfold DotDims.lhsIdx
  rw [dif_neg (show ¬(0 : Fin S1x16.rank) ∈ dot_S1x16_S16x16_S1x16_1_0_0_1_n_n.lhsBatch by decide), dif_pos (show (0 : Fin S1x16.rank) ∈ dot_S1x16_S16x16_S1x16_1_0_0_1_n_n.lhsNonContracting by decide)]
  rfl
theorem lhsA_1 (i : S1x16.Idx) (q : dot_S1x16_S16x16_S1x16_1_0_0_1_n_n.contr.Idx) :
    (dot_S1x16_S16x16_S1x16_1_0_0_1_n_n.lhsIdx i q 1).val = (q ⟨0, by decide⟩).val :=
  dot_S1x16_S16x16_S1x16_1_0_0_1_n_n.lhsIdx_val_of_single rfl i q
theorem rhsA_0 (i : S1x16.Idx) (q : dot_S1x16_S16x16_S1x16_1_0_0_1_n_n.contr.Idx) :
    (dot_S1x16_S16x16_S1x16_1_0_0_1_n_n.rhsIdx i q 0).val = (q ⟨0, by decide⟩).val :=
  dot_S1x16_S16x16_S1x16_1_0_0_1_n_n.rhsIdx_val_of_single rfl i q
theorem rhsA_1 (i : S1x16.Idx) (q : dot_S1x16_S16x16_S1x16_1_0_0_1_n_n.contr.Idx) :
    (dot_S1x16_S16x16_S1x16_1_0_0_1_n_n.rhsIdx i q 1).val = (i 1).val := by
  unfold DotDims.rhsIdx
  rw [dif_neg (show ¬(1 : Fin S16x16.rank) ∈ dot_S1x16_S16x16_S1x16_1_0_0_1_n_n.rhsBatch by decide), dif_pos (show (1 : Fin S16x16.rank) ∈ dot_S1x16_S16x16_S1x16_1_0_0_1_n_n.rhsNonContracting by decide)]
  rfl

/-- Entry `(a, b)` of the product accumulated from zero: the sum over the 16 contracted coordinates of row `a` of the
    left factor against column `b` of the right one. -/
theorem mmA_apply (x : FVec Ideal S1x16 .f32) (w : FVec Ideal S16x16 .f32) (a : Fin 1) (b : Fin 16) :
    matmul dot_S1x16_S16x16_S1x16_1_0_0_1_n_n none x w (constant (F := Ideal) S1x16 .f32 0x00000000#32) (ix2 a b)
      = ∑ k : Fin 16, x (ix2 a k) * w (ix2 k b) := by
  simp only [matmul]
  rw [Ideal.matmul_constant_zero_apply, ← Equiv.sum_comp (contrEquiv1 dot_S1x16_S16x16_S1x16_1_0_0_1_n_n 16 rfl rfl).symm]
  refine Finset.sum_congr rfl fun k _ => ?_
  have hk := contrEquiv1_symm_val dot_S1x16_S16x16_S1x16_1_0_0_1_n_n 16 rfl rfl k
  have el : dot_S1x16_S16x16_S1x16_1_0_0_1_n_n.lhsIdx (ix2 a b) ((contrEquiv1 dot_S1x16_S16x16_S1x16_1_0_0_1_n_n 16 rfl rfl).symm k) = ix2 a k :=
    funext fun c => Fin.ext (by
      match c with
      | ⟨0, _⟩ => exact lhsA_0 _ _
      | ⟨1, _⟩ => exact (lhsA_1 _ _).trans hk)
  have er : dot_S1x16_S16x16_S1x16_1_0_0_1_n_n.rhsIdx (ix2 a b) ((contrEquiv1 dot_S1x16_S16x16_S1x16_1_0_0_1_n_n 16 rfl rfl).symm k) = ix2 k b :=
    funext fun c => Fin.ext (by
      match c with
      | ⟨0, _⟩ => exact (rhsA_0 _ _).trans hk
      | ⟨1, _⟩ => exact rhsA_1 _ _)
  rw [el, er]

/-! ### The product of a 1024 × 16 array with a 16 × 16 array -/

theorem lhsB_0 (i : S1024x16.Idx) (q : dot_S1024x16_S16x16_S1024x16_1_0_0_1_n_n.contr.Idx) :
    (dot_S1024x16_S16x16_S1024x16_1_0_0_1_n_n.lhsIdx i q 0).val = (i 0).val := by
  unfold DotDims.lhsIdx
  rw [dif_neg (show ¬(0 : Fin S1024x16.rank) ∈ dot_S1024x16_S16x16_S1024x16_1_0_0_1_n_n.lhsBatch by decide), dif_pos (show (0 : Fin S1024x16.rank) ∈ dot_S1024x16_S16x16_S1024x16_1_0_0_1_n_n.lhsNonContracting by decide)]
  rfl
theorem lhsB_1 (i : S1024x16.Idx) (q : dot_S1024x16_S16x16_S1024x16_1_0_0_1_n_n.contr.Idx) :
    (dot_S1024x16_S16x16_S1024x16_1_0_0_1_n_n.lhsIdx i q 1).val = (q ⟨0, by decide⟩).val :=
  dot_S1024x16_S16x16_S1024x16_1_0_0_1_n_n.lhsIdx_val_of_single rfl i q
theorem rhsB_0 (i : S1024x16.Idx) (q : dot_S1024x16_S16x16_S1024x16_1_0_0_1_n_n.contr.Idx) :
    (dot_S1024x16_S16x16_S1024x16_1_0_0_1_n_n.rhsIdx i q 0).val = (q ⟨0, by decide⟩).val :=
  dot_S1024x16_S16x16_S1024x16_1_0_0_1_n_n.rhsIdx_val_of_single rfl i q
theorem rhsB_1 (i : S1024x16.Idx) (q : dot_S1024x16_S16x16_S1024x16_1_0_0_1_n_n.contr.Idx) :
    (dot_S1024x16_S16x16_S1024x16_1_0_0_1_n_n.rhsIdx i q 1).val = (i 1).val := by
  unfold DotDims.rhsIdx
  rw [dif_neg (show ¬(1 : Fin S16x16.rank) ∈ dot_S1024x16_S16x16_S1024x16_1_0_0_1_n_n.rhsBatch by decide), dif_pos (show (1 : Fin S16x16.rank) ∈ dot_S1024x16_S16x16_S1024x16_1_0_0_1_n_n.rhsNonContracting by decide)]
  rfl

/-- Entry `(a, b)` of the product accumulated from zero: the sum over the 16 contracted coordinates of row `a` of the
    left factor against column `b` of the right one. -/
theorem mmB_apply (x : FVec Ideal S1024x16 .f32) (w : FVec Ideal S16x16 .f32) (a : Fin 1024) (b : Fin 16) :
    matmul dot_S1024x16_S16x16_S1024x16_1_0_0_1_n_n none x w (constant (F := Ideal) S1024x16 .f32 0x00000000#32) (ix2 a b)
      = ∑ k : Fin 16, x (ix2 a k) * w (ix2 k b) := by
  simp only [matmul]
  rw [Ideal.matmul_constant_zero_apply, ← Equiv.sum_comp (contrEquiv1 dot_S1024x16_S16x16_S1024x16_1_0_0_1_n_n 16 rfl rfl).symm]
  refine Finset.sum_congr rfl fun k _ => ?_
  have hk := contrEquiv1_symm_val dot_S1024x16_S16x16_S1024x16_1_0_0_1_n_n 16 rfl rfl k
  have el : dot_S1024x16_S16x16_S1024x16_1_0_0_1_n_n.lhsIdx (ix2 a b) ((contrEquiv1 dot_S1024x16_S16x16_S1024x16_1_0_0_1_n_n 16 rfl rfl).symm k) = ix2 a k :=
    funext fun c => Fin.ext (by
      match c with
      | ⟨0, _⟩ => exact lhsB_0 _ _
      | ⟨1, _⟩ => exact (lhsB_1 _ _).trans hk)
  have er : dot_S1024x16_S16x16_S1024x16_1_0_0_1_n_n.rhsIdx (ix2 a b) ((contrEquiv1 dot_S1024x16_S16x16_S1024x16_1_0_0_1_n_n 16 rfl rfl).symm k) = ix2 k b :=
    funext fun c => Fin.ext (by
      match c with
      | ⟨0, _⟩ => exact (rhsB_0 _ _).trans hk
      | ⟨1, _⟩ => exact rhsB_1 _ _)
  rw [el, er]

/-! ### The product of a 1024 × 16 array with a 16 × 48 array -/

theorem lhsC_0 (i : S1024x48.Idx) (q : dot_S1024x16_S16x48_S1024x48_1_0_0_1_n_n.contr.Idx) :
    (dot_S1024x16_S16x48_S1024x48_1_0_0_1_n_n.lhsIdx i q 0).val = (i 0).val := by
  unfold DotDims.lhsIdx
  rw [dif_neg (show ¬(0 : Fin S1024x16.rank) ∈ dot_S1024x16_S16x48_S1024x48_1_0_0_1_n_n.lhsBatch by decide), dif_pos (show (0 : Fin S1024x16.rank) ∈ dot_S1024x16_S16x48_S1024x48_1_0_0_1_n_n.lhsNonContracting by decide)]
  rfl
theorem lhsC_1 (i : S1024x48.Idx) (q : dot_S1024x16_S16x48_S1024x48_1_0_0_1_n_n.contr.Idx) :
    (dot_S1024x16_S16x48_S1024x48_1_0_0_1_n_n.lhsIdx i q 1).val = (q ⟨0, by decide⟩).val :=
  dot_S1024x16_S16x48_S1024x48_1_0_0_1_n_n.lhsIdx_val_of_single rfl i q
theorem rhsC_0 (i : S1024x48.Idx) (q : dot_S1024x16_S16x48_S1024x48_1_0_0_1_n_n.contr.Idx) :
    (dot_S1024x16_S16x48_S1024x48_1_0_0_1_n_n.rhsIdx i q 0).val = (q ⟨0, by decide⟩).val :=
  dot_S1024x16_S16x48_S1024x48_1_0_0_1_n_n.rhsIdx_val_of_single rfl i q
theorem rhsC_1 (i : S1024x48.Idx) (q : dot_S1024x16_S16x48_S1024x48_1_0_0_1_n_n.contr.Idx) :
    (dot_S1024x16_S16x48_S1024x48_1_0_0_1_n_n.rhsIdx i q 1).val = (i 1).val := by
  unfold DotDims.rhsIdx
  rw [dif_neg (show ¬(1 : Fin S16x48.rank) ∈ dot_S1024x16_S16x48_S1024x48_1_0_0_1_n_n.rhsBatch by decide), dif_pos (show (1 : Fin S16x48.rank) ∈ dot_S1024x16_S16x48_S1024x48_1_0_0_1_n_n.rhsNonContracting by decide)]
  rfl

/-- Entry `(a, b)` of the product accumulated from zero: the sum over the 16 contracted coordinates of row `a` of the
    left factor against column `b` of the right one. -/
theorem mmC_apply (x : FVec Ideal S1024x16 .f32) (w : FVec Ideal S16x48 .f32) (a : Fin 1024) (b : Fin 48) :
    matmul dot_S1024x16_S16x48_S1024x48_1_0_0_1_n_n none x w (constant (F := Ideal) S1024x48 .f32 0x00000000#32) (ix2 a b)
      = ∑ k : Fin 16, x (ix2 a k) * w (ix2 k b) := by
  simp only [matmul]
  rw [Ideal.matmul_constant_zero_apply, ← Equiv.sum_comp (contrEquiv1 dot_S1024x16_S16x48_S1024x48_1_0_0_1_n_n 16 rfl rfl).symm]
  refine Finset.sum_congr rfl fun k _ => ?_
  have hk := contrEquiv1_symm_val dot_S1024x16_S16x48_S1024x48_1_0_0_1_n_n 16 rfl rfl k
  have el : dot_S1024x16_S16x48_S1024x48_1_0_0_1_n_n.lhsIdx (ix2 a b) ((contrEquiv1 dot_S1024x16_S16x48_S1024x48_1_0_0_1_n_n 16 rfl rfl).symm k) = ix2 a k :=
    funext fun c => Fin.ext (by
      match c with
      | ⟨0, _⟩ => exact lhsC_0 _ _
      | ⟨1, _⟩ => exact (lhsC_1 _ _).trans hk)
  have er : dot_S1024x16_S16x48_S1024x48_1_0_0_1_n_n.rhsIdx (ix2 a b) ((contrEquiv1 dot_S1024x16_S16x48_S1024x48_1_0_0_1_n_n 16 rfl rfl).symm k) = ix2 k b :=
    funext fun c => Fin.ext (by
      match c with
      | ⟨0, _⟩ => exact (rhsC_0 _ _).trans hk
      | ⟨1, _⟩ => exact rhsC_1 _ _)
  rw [el, er]

/-! ## The column sums -/

/-- Summing the 1024 rows: entry `k` of the result is the sum of column `k`. -/
theorem colsum_apply (x : FVec Ideal S1024x16 .f32) (k : Fin 16) :
    multiReduction (F := Ideal) .add [0] S16 x 0x00000000#32 reduces_S1024x16_S16 (.inl rfl) rfl (ix1 k)
      = ∑ s : Fin 1024, x (ix2 s k) := by
  refine (Ideal.multiReduction_add_single x _ reduces_S1024x16_S16 (.inl rfl) rfl (ix1 k)).trans ?_
  show ∑ s : Fin 1024, x (reduces_S1024x16_S16.lift (ix1 k) s) = _
  refine Finset.sum_congr rfl fun s _ => congrArg x (funext fun c => ?_)
  match c with
  | ⟨0, _⟩ => exact Fin.ext rfl
  | ⟨1, _⟩ => exact Fin.ext rfl

/-! ## The stages of the body, each read at an entry -/

/-- The shared row: the column sums against the source half of the message weights, plus 1024 times the bias. -/
def row (v0 : FVec Ideal S1024x16 .f32) (v5 : FVec Ideal S16x16 .f32) (v9 : FVec Ideal S1x16 .f32) : FVec Ideal S1x16 .f32 :=
  addf (matmul dot_S1x16_S16x16_S1x16_1_0_0_1_n_n none
          (shapeCast S1x16 (multiReduction (F := Ideal) .add [0] S16 v0 0x00000000#32 reduces_S1024x16_S16 (.inl rfl) rfl) shapeCasts_S16_S1x16)
          v5 (constant (F := Ideal) S1x16 .f32 0x00000000#32))
       (mulf (broadcast S1x16 (Scalar.ofBits (F := Ideal) .f32 0x44800000#32)) v9)

/-- Entry `j` of the shared row. The sixteen column sums laid out as one row keep their order, so the product's left
    factor at `(u, k)` is the sum of column `k`. -/
theorem row_apply (v0 : FVec Ideal S1024x16 .f32) (v5 : FVec Ideal S16x16 .f32) (v9 : FVec Ideal S1x16 .f32) (u : Fin 1) (j : Fin 16) :
    row v0 v5 v9 (ix2 u j)
      = (∑ k : Fin 16, (∑ s : Fin 1024, v0 (ix2 s k)) * v5 (ix2 k j)) + ((1024 : ℝ) : EReal) * v9 (ix2 u j) := by
  unfold row
  refine congrArg₂ (· + ·) ?_ ?_
  · refine (mmA_apply _ v5 u j).trans (Finset.sum_congr rfl fun k _ => congrArg (· * v5 (ix2 k j)) ?_)
    exact (shapeCast_a_1a_apply _ shapeCasts_S16_S1x16 u k).trans (colsum_apply v0 k)
  · exact congrArg (· * v9 (ix2 u j)) Cert.Consts.ofBits_1024

/-- The aggregate: 1024 times the node's own features against the destination half of the message weights, plus the
    shared row repeated on every node. -/
def agg (v0 : FVec Ideal S1024x16 .f32) (v5 v6 : FVec Ideal S16x16 .f32) (v9 : FVec Ideal S1x16 .f32) : FVec Ideal S1024x16 .f32 :=
  addf (mulf (broadcast S1024x16 (Scalar.ofBits (F := Ideal) .f32 0x44800000#32))
          (matmul dot_S1024x16_S16x16_S1024x16_1_0_0_1_n_n none v0 v6 (constant (F := Ideal) S1024x16 .f32 0x00000000#32)))
       (broadcastTo S1024x16 (row v0 v5 v9) broadcasts_S1x16_S1024x16)

/-- Entry `(d, j)` of the aggregate. -/
theorem agg_apply (v0 : FVec Ideal S1024x16 .f32) (v5 v6 : FVec Ideal S16x16 .f32) (v9 : FVec Ideal S1x16 .f32) (d : Fin 1024) (j : Fin 16) :
    agg v0 v5 v6 v9 (ix2 d j) = aggT v0 v5 v6 v9 d j := by
  unfold agg aggT
  refine congrArg₂ (· + ·) ?_ ?_
  · exact congrArg₂ (· * ·) Cert.Consts.ofBits_1024 (mmB_apply v0 v6 d j)
  · exact (broadcastTo_1b_ab_apply _ broadcasts_S1x16_S1024x16 d j).trans (row_apply v0 v5 v9 0 j)

/-- A 48-wide pre-activation: the rows of `a` against the gate weights, plus the bias row repeated on every node. -/
def aff (a : FVec Ideal S1024x16 .f32) (w : FVec Ideal S16x48 .f32) (b : FVec Ideal S1x48 .f32) : FVec Ideal S1024x48 .f32 :=
  addf (matmul dot_S1024x16_S16x48_S1024x48_1_0_0_1_n_n none a w (constant (F := Ideal) S1024x48 .f32 0x00000000#32))
       (broadcastTo S1024x48 b broadcasts_S1x48_S1024x48)

/-- Entry `(d, c)` of a pre-activation. -/
theorem aff_apply (a : FVec Ideal S1024x16 .f32) (w : FVec Ideal S16x48 .f32) (b : FVec Ideal S1x48 .f32) (d : Fin 1024) (c : Fin 48) :
    aff a w b (ix2 d c) = (∑ k : Fin 16, a (ix2 d k) * w (ix2 k c)) + b (ix2 (0 : Fin 1) c) := by
  unfold aff
  exact congrArg₂ (· + ·) (mmC_apply a w d c) (broadcastTo_1b_ab_apply b broadcasts_S1x48_S1024x48 d c)

/-! ### The gates

The reset and update gates come from the first 32 columns of the two pre-activations, added and passed through the
logistic function: columns 0–15 the reset gate, 16–31 the update gate. The candidate uses columns 32–47 of each. Column
`j` of group `g` is column `16 g + j` of the 48. -/

/-- The logistic of the sum of the first 32 columns. -/
def rz (GI GH : FVec Ideal S1024x48 .f32) : FVec Ideal S1024x32 .f32 :=
  logistic (addf (extractStridedSlice S1024x32 ![0, 0] GI slices_S1024x48_o0_0_S1024x32)
                 (extractStridedSlice S1024x32 ![0, 0] GH slices_S1024x48_o0_0_S1024x32))

/-- Its entry `(d, c)`, with the column named among the 48. -/
theorem rz_apply (GI GH : FVec Ideal S1024x48 .f32) (d : Fin 1024) (c : Fin 32) (k : Fin 48) (hk : k.val = 0 + c.val) :
    rz GI GH (ix2 d c) = Ideal.logistic (GI (ix2 d k) + GH (ix2 d k)) := by
  show Ideal.logistic (extractStridedSlice S1024x32 ![0, 0] GI slices_S1024x48_o0_0_S1024x32 (ix2 d c)
        + extractStridedSlice S1024x32 ![0, 0] GH slices_S1024x48_o0_0_S1024x32 (ix2 d c)) = _
  rw [slice2_axis1_apply 0 GI slices_S1024x48_o0_0_S1024x32 d c k hk, slice2_axis1_apply 0 GH slices_S1024x48_o0_0_S1024x32 d c k hk]

/-- The reset gate: columns 0–15 of `rz`. -/
def gR (GI GH : FVec Ideal S1024x48 .f32) : FVec Ideal S1024x16 .f32 :=
  extractStridedSlice S1024x16 ![0, 0] (rz GI GH) slices_S1024x32_o0_0_S1024x16
/-- The update gate: columns 16–31 of `rz`. -/
def gZ (GI GH : FVec Ideal S1024x48 .f32) : FVec Ideal S1024x16 .f32 :=
  extractStridedSlice S1024x16 ![0, 16] (rz GI GH) slices_S1024x32_o0_16_S1024x16
/-- The candidate's columns, 32–47, of one pre-activation. -/
def gN (G : FVec Ideal S1024x48 .f32) : FVec Ideal S1024x16 .f32 :=
  extractStridedSlice S1024x16 ![0, 32] G slices_S1024x48_o0_32_S1024x16

theorem gR_apply (GI GH : FVec Ideal S1024x48 .f32) (d : Fin 1024) (j : Fin 16) :
    gR GI GH (ix2 d j) = Ideal.logistic (GI (ix2 d (gate 0 j)) + GH (ix2 d (gate 0 j))) := by
  unfold gR
  refine (slice2_axis1_apply 0 (rz GI GH) slices_S1024x32_o0_0_S1024x16 d j ⟨j.val, by omega⟩ (Nat.zero_add _).symm).trans ?_
  exact rz_apply GI GH d _ (gate 0 j) (by show 16 * 0 + j.val = 0 + j.val; omega)

theorem gZ_apply (GI GH : FVec Ideal S1024x48 .f32) (d : Fin 1024) (j : Fin 16) :
    gZ GI GH (ix2 d j) = Ideal.logistic (GI (ix2 d (gate 1 j)) + GH (ix2 d (gate 1 j))) := by
  unfold gZ
  refine (slice2_axis1_apply 16 (rz GI GH) slices_S1024x32_o0_16_S1024x16 d j ⟨16 + j.val, by omega⟩ rfl).trans ?_
  exact rz_apply GI GH d _ (gate 1 j) (by show 16 * 1 + j.val = 0 + (16 + j.val); omega)

theorem gN_apply (G : FVec Ideal S1024x48 .f32) (d : Fin 1024) (j : Fin 16) :
    gN G (ix2 d j) = G (ix2 d (gate 2 j)) := by
  unfold gN
  exact slice2_axis1_apply 32 G slices_S1024x48_o0_32_S1024x16 d j (gate 2 j) (by show 16 * 2 + j.val = 32 + j.val; omega)

/-- The update from the two pre-activations and the node features: `(1 − z) · tanh(n₁ + r · n₂) + z · h`. -/
def out (GI GH : FVec Ideal S1024x48 .f32) (h : FVec Ideal S1024x16 .f32) : FVec Ideal S1024x16 .f32 :=
  addf (mulf (subf (broadcast S1024x16 (Scalar.ofBits (F := Ideal) .f32 0x3F800000#32)) (gZ GI GH))
             (tanh (addf (gN GI) (mulf (gR GI GH) (gN GH)))))
       (mulf (gZ GI GH) h)

/-- Its entry `(d, j)`. -/
theorem out_apply (GI GH : FVec Ideal S1024x48 .f32) (h : FVec Ideal S1024x16 .f32) (d : Fin 1024) (j : Fin 16) :
    out GI GH h (ix2 d j)
      = (1 - Ideal.logistic (GI (ix2 d (gate 1 j)) + GH (ix2 d (gate 1 j))))
          * Ideal.tanh (GI (ix2 d (gate 2 j))
              + Ideal.logistic (GI (ix2 d (gate 0 j)) + GH (ix2 d (gate 0 j))) * GH (ix2 d (gate 2 j)))
        + Ideal.logistic (GI (ix2 d (gate 1 j)) + GH (ix2 d (gate 1 j))) * h (ix2 d j) := by
  show (Ideal.ofBits .f32 0x3F800000#32 - gZ GI GH (ix2 d j))
          * Ideal.tanh (gN GI (ix2 d j) + gR GI GH (ix2 d j) * gN GH (ix2 d j))
        + gZ GI GH (ix2 d j) * h (ix2 d j) = _
  rw [gZ_apply, gR_apply, gN_apply, gN_apply, Cert.Consts.ofBits_one]

/-- The body's value is these stages composed (each line of the body is one of the operations above). -/
theorem payTail_stages (v0 : Vec Ideal S1024x16 .f32) (v5 v6 : FVec Ideal S16x16 .f32) (v7 v8 : FVec Ideal S16x48 .f32)
    (v9 : FVec Ideal S1x16 .f32) (v10 v11 : FVec Ideal S1x48 .f32) :
    payTail (F := Ideal) v0 v5 v6 v7 v8 v9 v10 v11 = out (aff (agg v0 v5 v6 v9) v7 v10) (aff v0 v8 v11) v0 := rfl

/-- The input-side pre-activation is the specification's, over the aggregate `aggT`. -/
theorem gi_eq (v0 : Vec Ideal S1024x16 .f32) (v5 v6 : FVec Ideal S16x16 .f32) (v7 : FVec Ideal S16x48 .f32)
    (v9 : FVec Ideal S1x16 .f32) (v10 : FVec Ideal S1x48 .f32) (d : Fin 1024) (c : Fin 48) :
    aff (agg v0 v5 v6 v9) v7 v10 (ix2 d c)
      = gi (fun c k => v7 (ix2 k c)) (fun c => v10 (ix2 (0 : Fin 1) c)) (aggT v0 v5 v6 v9) d c := by
  rw [aff_apply]
  unfold gi
  exact congrArg (· + v10 (ix2 (0 : Fin 1) c))
    (Finset.sum_congr rfl fun k _ => congrArg (· * v7 (ix2 k c)) (agg_apply v0 v5 v6 v9 d k))

/-- The hidden-side pre-activation is the specification's. -/
theorem gh_eq (v0 : Vec Ideal S1024x16 .f32) (v8 : FVec Ideal S16x48 .f32) (v11 : FVec Ideal S1x48 .f32) (d : Fin 1024) (c : Fin 48) :
    aff v0 v8 v11 (ix2 d c)
      = gh (arr2 v0) (fun c k => v8 (ix2 k c)) (fun c => v11 (ix2 (0 : Fin 1) c)) d c :=
  aff_apply v0 v8 v11 d c

end PT

/-- The body's value at entry `(d, j)` is the specification's gated update of the node features from the aggregate
    `aggT`, with the gate weights read by (gate row, feature) and the gate biases by gate row. -/
theorem payTail_apply (v0 : Vec Ideal S1024x16 .f32) (v5 v6 : FVec Ideal S16x16 .f32) (v7 v8 : FVec Ideal S16x48 .f32)
    (v9 : FVec Ideal S1x16 .f32) (v10 v11 : FVec Ideal S1x48 .f32) (d : Fin 1024) (j : Fin 16) :
    payTail (F := Ideal) v0 v5 v6 v7 v8 v9 v10 v11 (ix2 d j)
      = gru (arr2 v0) (fun c k => v7 (ix2 k c)) (fun c k => v8 (ix2 k c)) (fun c => v10 (ix2 (0 : Fin 1) c))
          (fun c => v11 (ix2 (0 : Fin 1) c)) (aggT v0 v5 v6 v9) d j := by
  rw [PT.payTail_stages, PT.out_apply,
    PT.gi_eq v0 v5 v6 v7 v9 v10 d (gate 0 j), PT.gi_eq v0 v5 v6 v7 v9 v10 d (gate 1 j), PT.gi_eq v0 v5 v6 v7 v9 v10 d (gate 2 j),
    PT.gh_eq v0 v8 v11 d (gate 0 j), PT.gh_eq v0 v8 v11 d (gate 1 j), PT.gh_eq v0 v8 v11 d (gate 2 j)]
  rfl

end Cert.KernelIdeal.KValue

end
-- ==== Proof.KernelValue.lean ====
/-
  The kernel body's value at one index, in terms of the seven ARGUMENT arrays: the packed operands are read back slice by
  slice (each slice of the packed weights is one of the weight matrices transposed, each slice of the packed biases one
  of the bias vectors), so the body's aggregate is the closed form `aggK` of the node features, the message weights and
  the message bias, and the whole value is the gated recurrent update of that aggregate.
-/
import proofs.«156742_g71322226917400_cont_sun_m_433_6_alg».proof.Proof.Pack
import proofs.«156742_g71322226917400_cont_sun_m_433_6_alg».proof.Proof.PackReads
import proofs.«156742_g71322226917400_cont_sun_m_433_6_alg».proof.Proof.PayTail
import proofs.«156742_g71322226917400_cont_sun_m_433_6_alg».proof.Proof.Spec

noncomputable section

namespace Cert.KernelIdeal.KValue

open Cert.KernelIdeal Cert.KernelIdeal.Gen Idealize.ShloMosaic Idealize.ShloMosaic.ValueIdx Cert.Gnn

variable (x0 : (⟨S1024x16, .f32⟩ : BufTy).Contents (Elt Ideal)) (x1 : (⟨S16x32, .f32⟩ : BufTy).Contents (Elt Ideal))
  (x2 : (⟨S16, .f32⟩ : BufTy).Contents (Elt Ideal)) (x3 x4 : (⟨S48x16, .f32⟩ : BufTy).Contents (Elt Ideal))
  (x5 x6 : (⟨S48, .f32⟩ : BufTy).Contents (Elt Ideal))

/-- The aggregate the body forms from its slices is the closed form over the argument arrays. -/
theorem aggT_packed :
    aggT x0 (sl5 (wpack x1 x3 x4)) (sl6 (wpack x1 x3 x4)) (sl9 (bpack x2 x5 x6)) = aggK (arr2 x0) (arr2 x1) (arr1 x2) := by
  funext d j
  unfold aggT aggK
  simp only [sl5_apply, sl6_apply, sl9_apply]

/-- The body's value at node `d`, feature `j`. -/
theorem pay_apply (d : Fin 1024) (j : Fin 16) :
    Gen.k0_pay1 (F := Ideal) x0 (wpack x1 x3 x4) (bpack x2 x5 x6) (ix2 d j)
      = gru (arr2 x0) (arr2 x3) (arr2 x4) (arr1 x5) (arr1 x6) (aggK (arr2 x0) (arr2 x1) (arr1 x2)) d j := by
  rw [pay_eq, payTail_apply, aggT_packed]
  have e7 : (fun (c : Fin 48) (k : Fin 16) => sl7 (wpack x1 x3 x4) (ix2 k c)) = arr2 x3 := by
    funext c k; exact sl7_apply x1 x3 x4 k c
  have e8 : (fun (c : Fin 48) (k : Fin 16) => sl8 (wpack x1 x3 x4) (ix2 k c)) = arr2 x4 := by
    funext c k; exact sl8_apply x1 x3 x4 k c
  have e10 : (fun (c : Fin 48) => sl10 (bpack x2 x5 x6) (ix2 (0 : Fin 1) c)) = arr1 x5 := by
    funext c; exact sl10_apply x2 x5 x6 c
  have e11 : (fun (c : Fin 48) => sl11 (bpack x2 x5 x6) (ix2 (0 : Fin 1) c)) = arr1 x6 := by
    funext c; exact sl11_apply x2 x5 x6 c
  rw [e7, e8, e10, e11]

end Cert.KernelIdeal.KValue

end
-- ==== Proof.RefAgg.lean ====
/-
  The reference program's aggregation, read at one node and one feature.

  The reference lists the 1024 · 1024 edges of the complete graph in row-major order: edge e runs from source
  e / 1024 to destination e % 1024. It gathers the source's and the destination's feature rows, lays them side by
  side (32 numbers), takes the product with the weight matrix and adds the bias (the edge's message), and adds every
  edge's message into its destination's row of an array of zeros. Read at node d and feature k, the result is the
  sum over the 1024 sources s of the message of edge (s, d): the specification's `aggR`.
-/
import proofs.«156742_g71322226917400_cont_sun_m_433_6_alg».proof.Proof.Spec
import proofs.«156742_g71322226917400_cont_sun_m_433_6_alg».proof.Proof.Gen.ReferenceIdeal.Read
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Gnn

/-! ## The two index arrays

Both are built from a count 0 … 1023: repeated along the rows for the sources, along the columns for the
destinations, then flattened. A count below 1024 is not negative as a signed word, so the wrap-around branch
(index + 1024 for a negative index) is never taken. -/

/-- The source of edge `e`. -/
abbrev src (e : Fin 1048576) : Fin 1024 := ⟨e.val / 1024, by have := e.isLt; omega⟩
/-- The destination of edge `e`. -/
abbrev dst (e : Fin 1048576) : Fin 1024 := ⟨e.val % 1024, by omega⟩

/-- A word holding a count below 1024, compared signed against zero, is not below it: the select keeps the count. -/
theorem select_neg_wrap (n : Nat) (hn : n < 1024) :
    Scalar.select (IntOp.cmpi .slt (BitVec.ofNat 32 n) 0#32) (IntOp.addi (BitVec.ofNat 32 n) 1024#32) (BitVec.ofNat 32 n)
      = BitVec.ofNat 32 n := by
  have h : ¬ IntOp.cmpi .slt (BitVec.ofNat 32 n) 0#32 = 1#1 := by
    rw [StableHlo.Predicate.slt_iff_toNat (by rw [BitVec.toNat_ofNat]; omega) (by decide)]
    simp
  exact if_neg h

/-- The flattened row-repeated count at edge `e` is its source. -/
theorem v2_at (e : Fin 1048576) : val_main_v2 (F := Ideal) (ix1 e) = BitVec.ofNat 32 (e.val / 1024) := by
  rw [val_main_v2_apply, val_main_v1_apply, val_main_v0_apply]

/-- The flattened column-repeated count at edge `e` is its destination. -/
theorem v6_at (e : Fin 1048576) : val_main_v6 (F := Ideal) (ix1 e) = BitVec.ofNat 32 (e.val % 1024) := by
  rw [val_main_v6_apply, val_main_v5_apply, val_main_v4_apply, val_main_v3_apply]
  show BitVec.ofNat 32 (0 * 1024 + e.val % 1024) = _
  rw [Nat.zero_mul, Nat.zero_add]

/-- The column of source indices the first gather reads. -/
theorem v12_at (e : Fin 1048576) : val_main_v12 (F := Ideal) (ix2 e 0) = BitVec.ofNat 32 (e.val / 1024) := by
  have hi : idx_main_v12 (ix2 e (0 : Fin 1)) = ix1 e := by funext a; match a with | ⟨0, _⟩ => rfl
  rw [val_main_v12_apply, hi, val_main_v11_apply, val_main_v8_apply, val_main_v10_apply, val_main_v7_apply,
    val_main_v9_apply, val_main_c_apply, val_main_c_0_apply, v2_at]
  exact select_neg_wrap _ (by have := e.isLt; omega)

/-- The column of destination indices the second gather reads. -/
theorem v19_at (e : Fin 1048576) : val_main_v19 (F := Ideal) (ix2 e 0) = BitVec.ofNat 32 (e.val % 1024) := by
  have hi : idx_main_v19 (ix2 e (0 : Fin 1)) = ix1 e := by funext a; match a with | ⟨0, _⟩ => rfl
  rw [val_main_v19_apply, hi, val_main_v18_apply, val_main_v15_apply, val_main_v17_apply, val_main_v14_apply,
    val_main_v16_apply, val_main_c_1_apply, val_main_c_2_apply, v6_at]
  exact select_neg_wrap _ (by omega)

/-- The column of destination indices the scatter reads. -/
theorem v33_at (e : Fin 1048576) : val_main_v33 (F := Ideal) (ix2 e 0) = BitVec.ofNat 32 (e.val % 1024) := by
  have hi : idx_main_v33 (ix2 e (0 : Fin 1)) = ix1 e := by funext a; match a with | ⟨0, _⟩ => rfl
  rw [val_main_v33_apply, hi, val_main_v32_apply, val_main_v29_apply, val_main_v31_apply, val_main_v28_apply,
    val_main_v30_apply, val_main_c_3_apply, val_main_c_4_apply, v6_at]
  exact select_neg_wrap _ (by omega)

/-! ## The two gathers

Each picks whole rows of the feature array: result row `e` is the row the index array names at `e`. The operand
index has, on the row axis, the start index (read signed, clamped to the last row) and nothing else, that axis
being collapsed; on the feature axis no start index and the result's own feature coordinate. -/

/-- A row gather at `(e, q)`, where the index array holds the row number `r` at `e`: entry `q` of row `r`. -/
theorem gather_at {α : Type} (x : S1024x16.Idx → α) (idx : IVec S1048576x1 32) (e : Fin 1048576) (q : Fin 16)
    (r : Fin 1024) (hr : idx (ix2 e 0) = BitVec.ofNat 32 r.val) :
    Host.gather gather_S1024x16_S1048576x1_S1048576x16_1_0_n_n_0_1_116 x idx (ix2 e q) = x (ix2 r q) := by
  unfold Host.gather
  congr 1
  funext a
  refine Fin.ext ?_
  match a with
  | ⟨0, _⟩ =>
    show gather_S1024x16_S1048576x1_S1048576x16_1_0_n_n_0_1_116.start (ix2 e q) idx 0
        + gather_S1024x16_S1048576x1_S1048576x16_1_0_n_n_0_1_116.batchCoord (ix2 e q) 0
        + gather_S1024x16_S1048576x1_S1048576x16_1_0_n_n_0_1_116.offCoord (ix2 e q) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x16_S1048576x1_S1048576x16_1_0_n_n_0_1_116.startIndexMap from
      List.mem_singleton.mpr rfl)]
    have hsi : gather_S1024x16_S1048576x1_S1048576x16_1_0_n_n_0_1_116.siIdx (ix2 e q)
        ⟨List.idxOf (0 : Fin 2) gather_S1024x16_S1048576x1_S1048576x16_1_0_n_n_0_1_116.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi, hr, StableHlo.Predicate.toInt_ofNat_small _ (by have := r.isLt; omega), Int.toNat_natCast]
    show min r.val (1024 - 1) = r.val
    have := r.isLt; omega
  | ⟨1, _⟩ =>
    show gather_S1024x16_S1048576x1_S1048576x16_1_0_n_n_0_1_116.start (ix2 e q) idx 1
        + gather_S1024x16_S1048576x1_S1048576x16_1_0_n_n_0_1_116.batchCoord (ix2 e q) 1
        + gather_S1024x16_S1048576x1_S1048576x16_1_0_n_n_0_1_116.offCoord (ix2 e q) 1 = q.val
    have h1 : gather_S1024x16_S1048576x1_S1048576x16_1_0_n_n_0_1_116.start (ix2 e q) idx 1 = 0 := by
      unfold GatherDims.start
      rw [dif_neg (by decide)]
    have h2 : gather_S1024x16_S1048576x1_S1048576x16_1_0_n_n_0_1_116.offCoord (ix2 e q) 1 = q.val := by
      unfold GatherDims.offCoord
      rw [dif_pos (by decide)]
      rfl
    rw [h1, h2, GatherDims.batchCoord_eq_zero _ _ _ List.not_mem_nil, Nat.add_zero, Nat.zero_add]

/-- The first gather at `(e, q)`: feature `q` of the source of edge `e`. -/
theorem v13_at (x0 : (⟨S1024x16, .f32⟩ : BufTy).Contents (Elt Ideal)) (e : Fin 1048576) (q : Fin 16) :
    val_main_v13 (F := Ideal) x0 (ix2 e q) = x0 (ix2 (src e) q) :=
  gather_at x0 _ e q (src e) (v12_at e)

/-- The second gather at `(e, q)`: feature `q` of the destination of edge `e`. -/
theorem v20_at (x0 : (⟨S1024x16, .f32⟩ : BufTy).Contents (Elt Ideal)) (e : Fin 1048576) (q : Fin 16) :
    val_main_v20 (F := Ideal) x0 (ix2 e q) = x0 (ix2 (dst e) q) :=
  gather_at x0 _ e q (dst e) (v19_at e)

/-! ## The edge's 32 numbers

The concatenation along the feature axis reads its first piece on columns 0 … 15 and its second, sixteen columns
back, on columns 16 … 31: the source's features, then the destination's. -/

/-- The concatenated array at `(e, k)`: number `k` of edge (source of `e`, destination of `e`). -/
theorem v21_at (x0 : (⟨S1024x16, .f32⟩ : BufTy).Contents (Elt Ideal)) (e : Fin 1048576) (k : Fin 32) :
    val_main_v21 (F := Ideal) x0 (ix2 e k) = edge (arr2 x0) (src e) (dst e) k := by
  unfold val_main_v21 edge
  by_cases hk : k.val < 16
  · rw [dif_pos hk,
      concatenate_pair_apply_left (t := S1048576x32) (s₁ := S1048576x16) (s₂ := S1048576x16) (1 : Fin 2) _ _ _ (ix2 e k) rfl (ix2 e (⟨k.val, hk⟩ : Fin 16))
        (fun b => by match b with | ⟨0, _⟩ => rfl | ⟨1, _⟩ => rfl)]
    exact v13_at x0 e ⟨k.val, hk⟩
  · have hk' : k.val - 16 < 16 := by have := k.isLt; omega
    rw [dif_neg hk,
      concatenate_pair_apply_right (t := S1048576x32) (s₁ := S1048576x16) (s₂ := S1048576x16) (1 : Fin 2) _ _ _ (ix2 e k) rfl rfl (ix2 e (⟨k.val - 16, hk'⟩ : Fin 16))
        (fun b hb => by
          match b, hb with
          | ⟨0, _⟩, _ => rfl
          | ⟨1, _⟩, hb => exact absurd rfl hb)
        (by show (k.val - 16) + 16 = k.val; omega)]
    exact v20_at x0 e ⟨k.val - 16, hk'⟩

/-! ## The edge's message

The product of the edge's 32 numbers with row `q` of the weight matrix (the program transposes the matrix and
contracts over its first axis, which reads the same entries), plus entry `q` of the bias (broadcast to every edge). -/

/-- The message of edge `e`, entry `q`. -/
theorem v26_at (x0 : (⟨S1024x16, .f32⟩ : BufTy).Contents (Elt Ideal)) (x1 : (⟨S16x32, .f32⟩ : BufTy).Contents (Elt Ideal))
    (x2 : (⟨S16, .f32⟩ : BufTy).Contents (Elt Ideal)) (e : Fin 1048576) (q : Fin 16) :
    val_main_v26 (F := Ideal) x0 x1 x2 (ix2 e q)
      = (∑ k : Fin 32, edge (arr2 x0) (src e) (dst e) k * arr2 x1 q k) + arr1 x2 q := by
  have hl : ∀ k : Fin 32, lidx_main_v23 (ix2 e q) k = ix2 e k := fun k => by
    funext a; match a with | ⟨0, _⟩ => rfl | ⟨1, _⟩ => rfl
  have hw : ∀ k : Fin 32, idx_main_v22 (ridx_main_v23 (ix2 e q) k) = ix2 q k := fun k => by
    funext a; match a with | ⟨0, _⟩ => rfl | ⟨1, _⟩ => rfl
  have hb : idx_main_v24 (idx_main_v25 (ix2 e q)) = ix1 q := by
    funext a; match a with | ⟨0, _⟩ => rfl
  rw [val_main_v26_apply, val_main_v23_apply, val_main_v25_apply, val_main_v24_apply, hb, Ideal.addf_def]
  congr 1
  refine Finset.sum_congr rfl fun k _ => ?_
  rw [hl, val_main_v22_apply, hw, v21_at]

/-! ## The scatter-add

Update `(e, q)` lands at row (the index array at `e`), column `q`: on the row axis the start index, read signed and
not clamped, with no window coordinate (that axis is inserted); on the feature axis no start index and the update's
own feature coordinate. Every index being a node number, no update leaves the array. So the updates that land on
`(d, k)` are those of the edges into `d`, at feature `k`: one for each source. -/

/-- Where update `(e, q)` lands when the index array holds the row number `r` at `e`. -/
theorem scatter_lands (idx : IVec S1048576x1 32) (e : Fin 1048576) (q : Fin 16) (r : Fin 1024)
    (hr : idx (ix2 e 0) = BitVec.ofNat 32 r.val) :
    scatter_S1024x16_S1048576x1_S1048576x16_1_0_0_1.resultIdx? (ix2 e q) idx = some (ix2 r q) := by
  have hlt := r.isLt
  have s0 : scatter_S1024x16_S1048576x1_S1048576x16_1_0_0_1.start (ix2 e q) idx 0 = (r.val : Int) := by
    unfold ScatterDims.start
    rw [dif_pos (show (0 : Fin 2) ∈ scatter_S1024x16_S1048576x1_S1048576x16_1_0_0_1.scatterDimsToOperandDims from
      List.mem_singleton.mpr rfl)]
    have hsi : scatter_S1024x16_S1048576x1_S1048576x16_1_0_0_1.siIdx (ix2 e q)
        ⟨List.idxOf (0 : Fin 2) scatter_S1024x16_S1048576x1_S1048576x16_1_0_0_1.scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi, hr, StableHlo.Predicate.toInt_ofNat_small _ (by omega)]
  have s1 : scatter_S1024x16_S1048576x1_S1048576x16_1_0_0_1.start (ix2 e q) idx 1 = 0 := by
    unfold ScatterDims.start
    rw [dif_neg (by decide)]
  have w0 : scatter_S1024x16_S1048576x1_S1048576x16_1_0_0_1.window (ix2 e q) 0 = 0 := by
    unfold ScatterDims.window
    rw [dif_neg (by decide)]
  have w1 : scatter_S1024x16_S1048576x1_S1048576x16_1_0_0_1.window (ix2 e q) 1 = q.val := by
    unfold ScatterDims.window
    rw [dif_pos (by decide)]
    rfl
  have h : ∀ a, 0 ≤ scatter_S1024x16_S1048576x1_S1048576x16_1_0_0_1.start (ix2 e q) idx a
        + scatter_S1024x16_S1048576x1_S1048576x16_1_0_0_1.window (ix2 e q) a
      ∧ scatter_S1024x16_S1048576x1_S1048576x16_1_0_0_1.start (ix2 e q) idx a
        + scatter_S1024x16_S1048576x1_S1048576x16_1_0_0_1.window (ix2 e q) a < S1024x16.size a := by
    intro a
    match a with
    | ⟨0, _⟩ =>
      show 0 ≤ scatter_S1024x16_S1048576x1_S1048576x16_1_0_0_1.start (ix2 e q) idx 0
            + ((scatter_S1024x16_S1048576x1_S1048576x16_1_0_0_1.window (ix2 e q) 0 : Nat) : Int)
          ∧ scatter_S1024x16_S1048576x1_S1048576x16_1_0_0_1.start (ix2 e q) idx 0
            + ((scatter_S1024x16_S1048576x1_S1048576x16_1_0_0_1.window (ix2 e q) 0 : Nat) : Int) < ((1024 : Nat) : Int)
      rw [s0, w0]; omega
    | ⟨1, _⟩ =>
      show 0 ≤ scatter_S1024x16_S1048576x1_S1048576x16_1_0_0_1.start (ix2 e q) idx 1
            + ((scatter_S1024x16_S1048576x1_S1048576x16_1_0_0_1.window (ix2 e q) 1 : Nat) : Int)
          ∧ scatter_S1024x16_S1048576x1_S1048576x16_1_0_0_1.start (ix2 e q) idx 1
            + ((scatter_S1024x16_S1048576x1_S1048576x16_1_0_0_1.window (ix2 e q) 1 : Nat) : Int) < ((16 : Nat) : Int)
      rw [s1, w1]; have := q.isLt; omega
  unfold ScatterDims.resultIdx?
  rw [dif_pos h]
  congr 1
  funext a; refine Fin.ext ?_
  match a with
  | ⟨0, _⟩ =>
    show (scatter_S1024x16_S1048576x1_S1048576x16_1_0_0_1.start (ix2 e q) idx 0
      + ((scatter_S1024x16_S1048576x1_S1048576x16_1_0_0_1.window (ix2 e q) 0 : Nat) : Int)).toNat = r.val
    rw [s0, w0]; omega
  | ⟨1, _⟩ =>
    show (scatter_S1024x16_S1048576x1_S1048576x16_1_0_0_1.start (ix2 e q) idx 1
      + ((scatter_S1024x16_S1048576x1_S1048576x16_1_0_0_1.window (ix2 e q) 1 : Nat) : Int)).toNat = q.val
    rw [s1, w1]; omega

/-- Update `(e, q)` lands on `(d, k)` exactly when edge `e` goes into `d` and `q` is `k`. -/
theorem lands_iff (e : Fin 1048576) (q : Fin 16) (d : Fin 1024) (k : Fin 16) :
    scatter_S1024x16_S1048576x1_S1048576x16_1_0_0_1.resultIdx? (ix2 e q) (val_main_v33 (F := Ideal)) = some (ix2 d k)
      ↔ dst e = d ∧ q = k := by
  rw [scatter_lands _ e q (dst e) (v33_at e)]
  constructor
  · intro h
    have h' := Option.some.inj h
    exact ⟨congrFun h' 0, congrFun h' 1⟩
  · rintro ⟨h1, h2⟩
    rw [h1, h2]

/-- An edge is its source and its destination: edge `1024 s + d` runs from `s` to `d`. -/
def edgeEquiv : Fin 1024 × Fin 1024 ≃ Fin 1048576 where
  toFun p := ⟨1024 * p.1.val + p.2.val, by have := p.1.isLt; have := p.2.isLt; omega⟩
  invFun e := (src e, dst e)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv e := by
    refine Fin.ext ?_
    show 1024 * (e.val / 1024) + e.val % 1024 = e.val
    omega

/-- The source of edge `1024 s + d` is `s`. -/
theorem src_edgeEquiv (s d : Fin 1024) : src (edgeEquiv (s, d)) = s :=
  congrArg Prod.fst (edgeEquiv.symm_apply_apply (s, d))
/-- The destination of edge `1024 s + d` is `d`. -/
theorem dst_edgeEquiv (s d : Fin 1024) : dst (edgeEquiv (s, d)) = d :=
  congrArg Prod.snd (edgeEquiv.symm_apply_apply (s, d))

/-- The scatter-add into `x` of any updates along the destination column, read at `(d, k)`: `x` there plus the
    updates, at feature `k`, of the 1024 edges into `d`. The sum over the updates that land on `(d, k)` is a sum over
    all updates of the update or zero; split by edge and feature, then by source and destination, it keeps one
    destination and one feature. -/
theorem scatterAdd_at (x : S1024x16.Idx → EReal) (upd : S1048576x16.Idx → EReal) (d : Fin 1024) (k : Fin 16) :
    Ideal.hostScatterAdd scatter_S1024x16_S1048576x1_S1048576x16_1_0_0_1 x (val_main_v33 (F := Ideal)) upd (ix2 d k)
      = x (ix2 d k) + ∑ s : Fin 1024, upd (ix2 (edgeEquiv (s, d)) k) := by
  unfold Ideal.hostScatterAdd
  refine congrArg (fun t => x (ix2 d k) + t) ?_
  refine (Finset.sum_filter _ _).trans ?_
  refine (sum_idx2 _).trans ?_
  refine (Equiv.sum_comp edgeEquiv _).symm.trans ?_
  refine (Fintype.sum_prod_type _).trans ?_
  refine Finset.sum_congr rfl fun s _ => ?_
  refine (Finset.sum_eq_single d (fun d' _ hd => ?_) (fun h => absurd (Finset.mem_univ _) h)).trans ?_
  · refine Finset.sum_eq_zero fun q _ => ?_
    exact if_neg (fun h => hd ((dst_edgeEquiv s d').symm.trans ((lands_iff _ _ _ _).1 h).1))
  refine (Finset.sum_eq_single k (fun q _ hq => ?_) (fun h => absurd (Finset.mem_univ _) h)).trans ?_
  · exact if_neg (fun h => hq ((lands_iff _ _ _ _).1 h).2)
  exact if_pos ((lands_iff _ _ _ _).2 ⟨dst_edgeEquiv s d, rfl⟩)

/-- THE AGGREGATE AT NODE `d`, FEATURE `k`: the array of zeros contributes nothing, and the updates that land there
    are the messages, at feature `k`, of the 1024 edges into `d`, one for each source. -/
theorem agg_apply (x0 : (⟨S1024x16, .f32⟩ : BufTy).Contents (Elt Ideal)) (x1 : (⟨S16x32, .f32⟩ : BufTy).Contents (Elt Ideal))
    (x2 : (⟨S16, .f32⟩ : BufTy).Contents (Elt Ideal)) (d : Fin 1024) (k : Fin 16) :
    val_main_v34 (F := Ideal) x0 x1 x2 (ix2 d k) = aggR (arr2 x0) (arr2 x1) (arr1 x2) d k := by
  have h0 : val_main_v27 (F := Ideal) (ix2 d k) = 0 := by
    rw [val_main_v27_apply, val_main_cst_apply, Ideal.ofBits_def, Ideal.ofBits_zero_f32]
  have hdef : val_main_v34 (F := Ideal) x0 x1 x2
      = Ideal.hostScatterAdd scatter_S1024x16_S1048576x1_S1048576x16_1_0_0_1 (val_main_v27 (F := Ideal))
          (val_main_v33 (F := Ideal)) (val_main_v26 (F := Ideal) x0 x1 x2) := by
    unfold val_main_v34 Host.scatterAdd
    exact Ideal.hostScatterAdd_def scatter_S1024x16_S1048576x1_S1048576x16_1_0_0_1 .single (val_main_v27 (F := Ideal))
      (val_main_v33 (F := Ideal)) (val_main_v26 (F := Ideal) x0 x1 x2)
  refine (congrFun hdef (ix2 d k)).trans ?_
  refine (scatterAdd_at (val_main_v27 (F := Ideal)) (val_main_v26 (F := Ideal) x0 x1 x2) d k).trans ?_
  rw [h0]
  refine (zero_add _).trans ?_
  unfold aggR
  refine Finset.sum_congr rfl fun s _ => ?_
  rw [v26_at, src_edgeEquiv s d, dst_edgeEquiv s d]

end Cert.ReferenceIdeal.RefValue

end
-- ==== Proof.RefGru.lean ====
/-
  The reference program's gated recurrent update, read at one node `d` and one feature `j`.

  After the aggregate the reference forms two 48-wide rows per node: the aggregate against the transposed
  input weights plus the input bias, and the node's own features against the transposed hidden weights plus
  the hidden bias. Each row is cut in three 16-wide gates: column `j` of slice `g` is column `16 g + j` of
  the row. The reset and update gates are `1 / (1 + exp (-(·)))` of the sum of the two sides, which is the
  logistic function by its definition; the candidate is `tanh` of the input side plus the reset gate times
  the hidden side; the result is `(1 - z) * n + z * h`. The aggregate enters only through its value at
  `(d, k)`, so it is kept as an opaque array.
-/
import proofs.«156742_g71322226917400_cont_sun_m_433_6_alg».proof.Proof.Spec
import proofs.«156742_g71322226917400_cont_sun_m_433_6_alg».proof.Proof.Consts
import proofs.«156742_g71322226917400_cont_sun_m_433_6_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Gnn

/-- The pattern of `1.0` denotes the real `1`. -/
theorem gru_ofBits_one : Ideal.ofBits .f32 0x3F800000#32 = 1 := Cert.Consts.ofBits_one

/-! ## Where each layout operation reads, at coordinates -/

/-- The left operand of the input-side product at `(d, c)`, term `k`, is the aggregate at `(d, k)`. -/
theorem gru_lidx36 (d : Fin 1024) (c : Fin 48) (k : Fin 16) : lidx_main_v36 (ix2 d c) k = ix2 d k :=
  funext fun a => Fin.ext (by match a with | ⟨0, _⟩ => rfl | ⟨1, _⟩ => rfl)

/-- The right operand is the transposed input weight at `(k, c)`, which is the weight at `(c, k)`. -/
theorem gru_ridx36 (d : Fin 1024) (c : Fin 48) (k : Fin 16) :
    idx_main_v35 (ridx_main_v36 (ix2 d c) k) = ix2 c k :=
  funext fun a => Fin.ext (by match a with | ⟨0, _⟩ => rfl | ⟨1, _⟩ => rfl)

/-- The input bias, broadcast along the nodes, is read at its column. -/
theorem gru_idx38 (d : Fin 1024) (c : Fin 48) : idx_main_v37 (idx_main_v38 (ix2 d c)) = ix1 c :=
  funext fun a => Fin.ext (by match a with | ⟨0, _⟩ => rfl)

/-- The hidden side's left operand at `(d, c)`, term `k`, is the node's own feature `(d, k)`. -/
theorem gru_lidx41 (d : Fin 1024) (c : Fin 48) (k : Fin 16) : lidx_main_v41 (ix2 d c) k = ix2 d k :=
  funext fun a => Fin.ext (by match a with | ⟨0, _⟩ => rfl | ⟨1, _⟩ => rfl)

/-- Its right operand is the hidden weight at `(c, k)`. -/
theorem gru_ridx41 (d : Fin 1024) (c : Fin 48) (k : Fin 16) :
    idx_main_v40 (ridx_main_v41 (ix2 d c) k) = ix2 c k :=
  funext fun a => Fin.ext (by match a with | ⟨0, _⟩ => rfl | ⟨1, _⟩ => rfl)

/-- The hidden bias is read at its column. -/
theorem gru_idx43 (d : Fin 1024) (c : Fin 48) : idx_main_v42 (idx_main_v43 (ix2 d c)) = ix1 c :=
  funext fun a => Fin.ext (by match a with | ⟨0, _⟩ => rfl)

/-- Slice `[0:16]` of a 48-wide row is gate 0: column `j` is column `16 * 0 + j`. -/
theorem gru_idx45 (d : Fin 1024) (j : Fin 16) : idx_main_v45 (ix2 d j) = ix2 d (gate 0 j) :=
  funext fun a => Fin.ext (by
    match a with
    | ⟨0, _⟩ => rfl
    | ⟨1, _⟩ => show j.val = 16 * 0 + j.val; omega)
/-- Slice `[16:32]` is gate 1. -/
theorem gru_idx46 (d : Fin 1024) (j : Fin 16) : idx_main_v46 (ix2 d j) = ix2 d (gate 1 j) :=
  funext fun a => Fin.ext (by
    match a with
    | ⟨0, _⟩ => rfl
    | ⟨1, _⟩ => show 16 + j.val = 16 * 1 + j.val; omega)
/-- Slice `[32:48]` is gate 2. -/
theorem gru_idx47 (d : Fin 1024) (j : Fin 16) : idx_main_v47 (ix2 d j) = ix2 d (gate 2 j) :=
  funext fun a => Fin.ext (by
    match a with
    | ⟨0, _⟩ => rfl
    | ⟨1, _⟩ => show 32 + j.val = 16 * 2 + j.val; omega)
/-- The same three slices of the hidden-side row. -/
theorem gru_idx48 (d : Fin 1024) (j : Fin 16) : idx_main_v48 (ix2 d j) = ix2 d (gate 0 j) :=
  funext fun a => Fin.ext (by
    match a with
    | ⟨0, _⟩ => rfl
    | ⟨1, _⟩ => show j.val = 16 * 0 + j.val; omega)
theorem gru_idx49 (d : Fin 1024) (j : Fin 16) : idx_main_v49 (ix2 d j) = ix2 d (gate 1 j) :=
  funext fun a => Fin.ext (by
    match a with
    | ⟨0, _⟩ => rfl
    | ⟨1, _⟩ => show 16 + j.val = 16 * 1 + j.val; omega)
theorem gru_idx50 (d : Fin 1024) (j : Fin 16) : idx_main_v50 (ix2 d j) = ix2 d (gate 2 j) :=
  funext fun a => Fin.ext (by
    match a with
    | ⟨0, _⟩ => rfl
    | ⟨1, _⟩ => show 32 + j.val = 16 * 2 + j.val; omega)

section
variable (x0 : (⟨S1024x16, .f32⟩ : BufTy).Contents (Elt Ideal)) (x1 : (⟨S16x32, .f32⟩ : BufTy).Contents (Elt Ideal))
  (x2 : (⟨S16, .f32⟩ : BufTy).Contents (Elt Ideal)) (x3 x4 : (⟨S48x16, .f32⟩ : BufTy).Contents (Elt Ideal))
  (x5 x6 : (⟨S48, .f32⟩ : BufTy).Contents (Elt Ideal))

/-! ## The two 48-wide rows -/

/-- The input-side row: the aggregate of node `d` against row `c` of the input weights, plus the bias. -/
theorem gru_gi_apply (d : Fin 1024) (c : Fin 48) :
    val_main_v39 (F := Ideal) x0 x1 x2 x3 x5 (ix2 d c)
      = gi (arr2 x3) (arr1 x5) (fun d' k => val_main_v34 (F := Ideal) x0 x1 x2 (ix2 d' k)) d c := by
  rw [val_main_v39_apply, val_main_v36_apply, val_main_v38_apply, val_main_v37_apply, gru_idx38]
  simp only [val_main_v35_apply, gru_lidx36, gru_ridx36, Ideal.addf_def]
  rfl

/-- The hidden-side row: the features of node `d` against row `c` of the hidden weights, plus the bias. -/
theorem gru_gh_apply (d : Fin 1024) (c : Fin 48) :
    val_main_v44 (F := Ideal) x0 x4 x6 (ix2 d c) = gh (arr2 x0) (arr2 x4) (arr1 x6) d c := by
  rw [val_main_v44_apply, val_main_v41_apply, val_main_v43_apply, val_main_v42_apply, gru_idx43]
  simp only [val_main_v40_apply, gru_lidx41, gru_ridx41, Ideal.addf_def]
  rfl

/-! ## The gates -/

/-- The reset gate: the logistic function of the two sides' gate-0 columns. -/
theorem gru_reset_apply (d : Fin 1024) (j : Fin 16) :
    val_main_v57 (F := Ideal) x0 x1 x2 x3 x4 x5 x6 (ix2 d j)
      = Ideal.logistic (gi (arr2 x3) (arr1 x5) (fun d' k => val_main_v34 (F := Ideal) x0 x1 x2 (ix2 d' k)) d (gate 0 j)
          + gh (arr2 x0) (arr2 x4) (arr1 x6) d (gate 0 j)) := by
  rw [val_main_v57_apply, val_main_v56_apply, val_main_cst_6_apply, val_main_v55_apply, val_main_v54_apply,
    val_main_cst_5_apply, val_main_v53_apply, val_main_v52_apply, val_main_v51_apply, val_main_v45_apply,
    val_main_v48_apply, gru_idx45, gru_idx48, gru_gi_apply, gru_gh_apply]
  simp only [Ideal.ofBits_def, gru_ofBits_one, Ideal.addf_def, Ideal.hostDivf_def, Ideal.hostUnary_exp_def,
    Ideal.hostNegf_def, Ideal.negf_def]
  rfl

/-- The update gate: the logistic function of the two sides' gate-1 columns. -/
theorem gru_update_apply (d : Fin 1024) (j : Fin 16) :
    val_main_v64 (F := Ideal) x0 x1 x2 x3 x4 x5 x6 (ix2 d j)
      = Ideal.logistic (gi (arr2 x3) (arr1 x5) (fun d' k => val_main_v34 (F := Ideal) x0 x1 x2 (ix2 d' k)) d (gate 1 j)
          + gh (arr2 x0) (arr2 x4) (arr1 x6) d (gate 1 j)) := by
  rw [val_main_v64_apply, val_main_v63_apply, val_main_cst_8_apply, val_main_v62_apply, val_main_v61_apply,
    val_main_cst_7_apply, val_main_v60_apply, val_main_v59_apply, val_main_v58_apply, val_main_v46_apply,
    val_main_v49_apply, gru_idx46, gru_idx49, gru_gi_apply, gru_gh_apply]
  simp only [Ideal.ofBits_def, gru_ofBits_one, Ideal.addf_def, Ideal.hostDivf_def, Ideal.hostUnary_exp_def,
    Ideal.hostNegf_def, Ideal.negf_def]
  rfl

/-- The candidate: `tanh` of the input side's gate-2 column plus the reset gate times the hidden side's. -/
theorem gru_cand_apply (d : Fin 1024) (j : Fin 16) :
    val_main_v67 (F := Ideal) x0 x1 x2 x3 x4 x5 x6 (ix2 d j)
      = Ideal.tanh (gi (arr2 x3) (arr1 x5) (fun d' k => val_main_v34 (F := Ideal) x0 x1 x2 (ix2 d' k)) d (gate 2 j)
          + Ideal.logistic (gi (arr2 x3) (arr1 x5) (fun d' k => val_main_v34 (F := Ideal) x0 x1 x2 (ix2 d' k)) d (gate 0 j)
              + gh (arr2 x0) (arr2 x4) (arr1 x6) d (gate 0 j)) * gh (arr2 x0) (arr2 x4) (arr1 x6) d (gate 2 j)) := by
  rw [val_main_v67_apply, val_main_v66_apply, val_main_v65_apply, val_main_v47_apply, val_main_v50_apply,
    gru_idx47, gru_idx50, gru_gi_apply, gru_gh_apply, gru_reset_apply]
  simp only [Ideal.addf_def, Ideal.mulf_def, Ideal.hostUnary_tanh_def]

end

/-- The reference's result at `(d, j)` is the gated recurrent update of the node's features from the aggregate. -/
theorem gru_apply (x0 : (⟨S1024x16, .f32⟩ : BufTy).Contents (Elt Ideal)) (x1 : (⟨S16x32, .f32⟩ : BufTy).Contents (Elt Ideal)) (x2 : (⟨S16, .f32⟩ : BufTy).Contents (Elt Ideal)) (x3 x4 : (⟨S48x16, .f32⟩ : BufTy).Contents (Elt Ideal)) (x5 x6 : (⟨S48, .f32⟩ : BufTy).Contents (Elt Ideal)) (d : Fin 1024) (j : Fin 16) :
    val_main_v72 (F := Ideal) x0 x1 x2 x3 x4 x5 x6 (ix2 d j)
      = gru (arr2 x0) (arr2 x3) (arr2 x4) (arr1 x5) (arr1 x6) (fun d' k => val_main_v34 (F := Ideal) x0 x1 x2 (ix2 d' k)) d j := by
  rw [val_main_v72_apply, val_main_v70_apply, val_main_v71_apply, val_main_v69_apply, val_main_v68_apply,
    val_main_cst_9_apply, gru_update_apply, gru_cand_apply]
  simp only [Ideal.ofBits_def, gru_ofBits_one, Ideal.addf_def, Ideal.mulf_def, Ideal.subf_def]
  rfl

end Cert.ReferenceIdeal.RefValue

end
-- ==== Proof.RefValue.lean ====
/-
  The reference's result at one index: its gated recurrent update (read stage by stage) of its aggregate, which is
  the sum `aggR` of the messages of the 1024 edges that end at the node.
-/
import proofs.«156742_g71322226917400_cont_sun_m_433_6_alg».proof.Proof.RefAgg
import proofs.«156742_g71322226917400_cont_sun_m_433_6_alg».proof.Proof.RefGru

noncomputable section

namespace Cert.ReferenceIdeal.RefValue

open Cert.ReferenceIdeal Cert.ReferenceIdeal.Read Idealize.ShloMosaic Idealize.ShloMosaic.ValueIdx Cert.Gnn

/-- The reference's result at node `d`, feature `j`. -/
theorem ref_apply (x0 : (⟨S1024x16, .f32⟩ : BufTy).Contents (Elt Ideal)) (x1 : (⟨S16x32, .f32⟩ : BufTy).Contents (Elt Ideal))
    (x2 : (⟨S16, .f32⟩ : BufTy).Contents (Elt Ideal)) (x3 x4 : (⟨S48x16, .f32⟩ : BufTy).Contents (Elt Ideal))
    (x5 x6 : (⟨S48, .f32⟩ : BufTy).Contents (Elt Ideal)) (d : Fin 1024) (j : Fin 16) :
    val_main_v72 (F := Ideal) x0 x1 x2 x3 x4 x5 x6 (ix2 d j)
      = gru (arr2 x0) (arr2 x3) (arr2 x4) (arr1 x5) (arr1 x6) (aggR (arr2 x0) (arr2 x1) (arr1 x2)) d j := by
  rw [gru_apply]
  have e : (fun (d' : Fin 1024) (k : Fin 16) => val_main_v34 (F := Ideal) x0 x1 x2 (ix2 d' k)) = aggR (arr2 x0) (arr2 x1) (arr1 x2) := by
    funext d' k; exact agg_apply x0 x1 x2 d' k
  rw [e]

end Cert.ReferenceIdeal.RefValue

end
-- ==== Proof.Algebra.lean ====
/-
  The one algebraic identity of the certificate: on a complete graph with 1024 nodes, summing the messages of the
  1024 incoming edges of a node gives the closed form that treats the source half and the destination half of each
  edge separately.

  For node d and output feature j the message of edge (s, d) is
      Σ_{k<16} h_s[k] · W_j[k]  +  Σ_{k<16} h_d[k] · W_j[16+k]  +  b_j .
  Summing over s: the first term becomes Σ_k (Σ_s h_s[k]) · W_j[k] (exchange the two sums, pull W_j[k] out); the
  second and third do not depend on s, so each is counted 1024 times.

  Both steps use distributivity, which the extended reals only have away from the infinities; so every entry is
  first written as the image of a real number, the identity is proved in the reals, and it is carried back along the
  coercion, which respects sums and products.
-/
import proofs.«156742_g71322226917400_cont_sun_m_433_6_alg».proof.Proof.Spec
import Mathlib.Data.EReal.Basic
import Mathlib.Algebra.BigOperators.Fin
import Mathlib.Algebra.BigOperators.Ring.Finset
import Mathlib.Algebra.BigOperators.Group.Finset.Basic
import Mathlib.Algebra.BigOperators.Group.Finset.Sigma
import Mathlib.Tactic.Ring

open scoped BigOperators

namespace Cert.Gnn

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a 32-wide row is the sum over its first 16 columns plus the sum over its last 16 columns. -/
theorem sum_fin32 {M : Type*} [AddCommMonoid M] (f : Fin 32 → M) :
    ∑ k : Fin 32, f k = ∑ k : Fin 16, f (lo16 k) + ∑ k : Fin 16, f (hi16 k) :=
  Fin.sum_univ_add (a := 16) (b := 16) f

/-- In its first 16 columns an edge carries the features of its source. -/
theorem edge_lo (h : Fin 1024 → Fin 16 → EReal) (s d : Fin 1024) (k : Fin 16) :
    edge h s d (lo16 k) = h s k := by
  unfold edge
  rw [dif_pos (show (lo16 k).val < 16 from k.isLt)]

/-- In its last 16 columns an edge carries the features of its destination. -/
theorem edge_hi (h : Fin 1024 → Fin 16 → EReal) (s d : Fin 1024) (k : Fin 16) :
    edge h s d (hi16 k) = h d k := by
  unfold edge
  rw [dif_neg (show ¬ (hi16 k).val < 16 from by simp)]
  congr 1
  apply Fin.ext
  simp

/-- The identity over the reals: 1024 copies of the destination term and of the bias, and the source term with the
two sums exchanged. -/
theorem agg_real (h : Fin 1024 → Fin 16 → ℝ) (W : Fin 16 → Fin 32 → ℝ) (b : Fin 16 → ℝ)
    (d : Fin 1024) (j : Fin 16) :
    (1024 : ℝ) * (∑ k : Fin 16, h d k * W j (hi16 k))
        + ((∑ k : Fin 16, (∑ s : Fin 1024, h s k) * W j (lo16 k)) + (1024 : ℝ) * b j)
      = ∑ s : Fin 1024,
          ((∑ k : Fin 16, h s k * W j (lo16 k) + ∑ k : Fin 16, h d k * W j (hi16 k)) + b j) := by
  rw [Finset.sum_add_distrib, Finset.sum_add_distrib, Finset.sum_const, Finset.sum_const,
    Finset.card_univ, Fintype.card_fin, Finset.sum_comm]
  simp only [Finset.sum_mul, nsmul_eq_mul]
  push_cast
  ring

/-- The closed form equals the sum over the incoming edges whenever every entry is a real number. -/
theorem aggK_eq_aggR (h : Fin 1024 → Fin 16 → EReal) (W : Fin 16 → Fin 32 → EReal) (b : Fin 16 → EReal)
    (hh : ∀ a k, ∃ r : ℝ, h a k = (r : EReal)) (hW : ∀ j k, ∃ r : ℝ, W j k = (r : EReal))
    (hb : ∀ j, ∃ r : ℝ, b j = (r : EReal)) :
    aggK h W b = aggR h W b := by
  choose h' hh' using hh
  choose W' hW' using hW
  choose b' hb' using hb
  obtain rfl : h = fun a k => (h' a k : EReal) := by funext a k; exact hh' a k
  obtain rfl : W = fun j k => (W' j k : EReal) := by funext j k; exact hW' j k
  obtain rfl : b = fun j => (b' j : EReal) := by funext j; exact hb' j
  funext d j
  unfold aggK aggR
  simp only [sum_fin32, edge_lo, edge_hi]
  simp only [← EReal.coe_mul, ← coe_sum, ← EReal.coe_add]
  rw [agg_real]

end Cert.Gnn
-- ==== Proof.Bridge.lean ====
/-
  The two programs' results are one array when the node features, the message weights and the message bias are real:
  both are the gated recurrent update of an aggregate, and the two aggregates — the closed form and the sum over the
  incoming edges — agree on real entries (Proof/Algebra.lean).
-/
import proofs.«156742_g71322226917400_cont_sun_m_433_6_alg».proof.Proof.KernelValue
import proofs.«156742_g71322226917400_cont_sun_m_433_6_alg».proof.Proof.RefValue
import proofs.«156742_g71322226917400_cont_sun_m_433_6_alg».proof.Proof.Algebra

noncomputable section

namespace Cert.Bridge

open Idealize.ShloMosaic Idealize.ShloMosaic.ValueIdx Cert.Gnn

/-- The kernel body's value over the packed arguments is the reference's result, index by index. -/
theorem value_eq (x0 : (⟨Cert.KernelIdeal.S1024x16, .f32⟩ : BufTy).Contents (Elt Ideal))
    (x1 : (⟨Cert.KernelIdeal.S16x32, .f32⟩ : BufTy).Contents (Elt Ideal))
    (x2 : (⟨Cert.KernelIdeal.S16, .f32⟩ : BufTy).Contents (Elt Ideal))
    (x3 x4 : (⟨Cert.KernelIdeal.S48x16, .f32⟩ : BufTy).Contents (Elt Ideal))
    (x5 x6 : (⟨Cert.KernelIdeal.S48, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    Cert.KernelIdeal.Gen.k0_pay1 (F := Ideal) x0 (Cert.KernelIdeal.KValue.wpack x1 x3 x4) (Cert.KernelIdeal.KValue.bpack x2 x5 x6)
      = Cert.ReferenceIdeal.Read.val_main_v72 (F := Ideal) x0 x1 x2 x3 x4 x5 x6 := by
  funext i
  obtain ⟨d, j, rfl⟩ : ∃ (d : Fin 1024) (j : Fin 16), i = ix2 d j := ⟨i 0, i 1, eq_ix2 i⟩
  rw [Cert.KernelIdeal.KValue.pay_apply, Cert.ReferenceIdeal.RefValue.ref_apply,
    aggK_eq_aggR (arr2 x0) (arr2 x1) (arr1 x2) (fun a k => h0 _) (fun a k => h1 _) (fun a => h2 _)]

end Cert.Bridge

end
-- ==== Proof.Finite.lean ====
/-
  The precondition "every float input is finite", read at the ideal instance (floats are extended reals) as plain
  facts about the first three argument arrays: each entry of the node features, of the message weights and of the
  message bias is a real number, not one of the two infinities.

  The precondition is a single one-bit word: the conjunction, over the seven arguments, of "all entries satisfy
  |x| < +∞". A conjunction of one-bit words is 1 exactly when every conjunct is 1; an and-reduction over every axis
  that came out 1 met a 1 at every index; and at an index the word compares max x (-x) with the extended real the
  pattern 0x7F800000 denotes, which is ⊤. An extended real whose absolute value lies strictly below ⊤ is neither ⊤
  nor ⊥, hence the image of a real.
-/
import proofs.«156742_g71322226917400_cont_sun_m_433_6_alg».proof.Defs
import proofs.«156742_g71322226917400_cont_sun_m_433_6_alg».proof.Proof.Gen.Pre_finite_inputs
import proofs.«156742_g71322226917400_cont_sun_m_433_6_alg».proof.Proof.Gen.KernelIdeal
import proofs.«156742_g71322226917400_cont_sun_m_433_6_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- If |x| = max x (-x) compares strictly below +∞ then x is a real: at x = ⊤ the maximum is ⊤, at x = ⊥ it is
    -⊥ = ⊤, and ⊤ < ⊤ fails in both cases. -/
theorem real_of_abs_lt_inf (x : EReal)
    (h : Ideal.cmp .olt (max x (-x)) (Ideal.ofBits .f32 0x7F800000#32) = 1#1) : ∃ r : ℝ, x = (r : EReal) := by
  rw [Cert.Consts.ofBits_inf] at h
  induction x using EReal.rec with
  | bot => simp [Ideal.cmp] at h
  | coe r => exact ⟨r, rfl⟩
  | top => simp [Ideal.cmp] at h

/-- The rank-0 shape has exactly one index (a function out of the empty set of axes). -/
instance : Subsingleton Cert.Pre_finite_inputs.S_.Idx := ⟨fun a b => funext fun d => d.elim0⟩

/-- One conjunct of the precondition, for an array `x` of any shape: if the and-reduction over all axes of the
    pointwise test |x i| < +∞ is 1, then every entry of `x` is a real. The and-reduction being 1 gives the test at
    each index `i`; the broadcast of the scalar +∞ reads that same scalar at every index. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) (i : s.Idx) :
    ∃ r : ℝ, x i = (r : EReal) :=
  real_of_abs_lt_inf (x i) (Host.reduce_andi_all _ _ hr hu j e i)

/-- Under the precondition, on every device, every entry of arguments 0, 1 and 2 is a real. The precondition's word
    is the left-nested conjunction ((((((a0 ∧ a1) ∧ a2) ∧ a3) ∧ a4) ∧ a5) ∧ a6) of the seven per-argument tests; it is
    1, so each conjunct is 1, and the first three conjuncts are the three claims by `all_real`. -/
theorem real_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h := congrFun (hpre c) ValueIdx.ix0
  dsimp only [Cert.Pre_finite_inputs.fn, Cert.Pre_finite_inputs.fn_part1] at h
  simp only [andi, IntOp.andi_eq_one] at h
  obtain ⟨⟨⟨⟨⟨⟨h0, h1⟩, h2⟩, -⟩, -⟩, -⟩, -⟩ := h
  exact ⟨all_real _ _ _ _ _ h0, all_real _ _ _ _ _ h1, all_real _ _ _ _ _ h2⟩

end Cert.Finite

end
-- ==== Proof.lean ====
/-
  The certificate of a fused graph-network step against its reference.

  The reference builds the complete graph on the 1024 nodes, forms for every one of the 1,048,576 edges the message
  `[h_src | h_dst] · W + b`, adds each message into its destination node, and passes the aggregate and the node's own
  features through a gated recurrent unit. The kernel never forms the edges: it computes the aggregate in closed form,
  `1024 · (h_d · W[:, 16:]) + ((Σ_s h_s) · W[:, :16] + 1024 · b)`, from one column sum and two small matrix products, and
  applies the same gated recurrent unit, all in one call over operands the host side packs beforehand.

  Over the extended reals the two aggregates agree whenever the node features, the message weights and the message bias
  are real numbers — the closed form redistributes products over the sum on the sources, which is sound away from the
  infinities — and the precondition says every input is finite. The gated recurrent unit is then the same function of
  the same arguments on both sides: the reference spells the logistic function as `1 / (1 + exp (-x))`, which is its
  definition.

  The pieces: the two kernel programs' frames (Proof/FrameK.lean, Proof/FrameKI.lean); the idealized kernel's result array
  as the body's value of the arguments (Proof/KernelRun.lean) and that value index by index (Proof/KernelValue.lean); the
  reference's run and its result index by index (Proof/RefValue.lean); the agreement (Proof/Bridge.lean over
  Proof/Algebra.lean); the precondition read as "real entries" (Proof/Finite.lean).
-/
import proofs.«156742_g71322226917400_cont_sun_m_433_6_alg».proof.Defs
import proofs.«156742_g71322226917400_cont_sun_m_433_6_alg».proof.Proof.Gen.Kernel
import proofs.«156742_g71322226917400_cont_sun_m_433_6_alg».proof.Proof.Gen.KernelIdeal
import proofs.«156742_g71322226917400_cont_sun_m_433_6_alg».proof.Proof.Gen.ReferenceIdeal
import proofs.«156742_g71322226917400_cont_sun_m_433_6_alg».proof.Proof.Gen.Pre_finite_inputs
import proofs.«156742_g71322226917400_cont_sun_m_433_6_alg».proof.Proof.Gen.ReferenceIdeal.Run
import proofs.«156742_g71322226917400_cont_sun_m_433_6_alg».proof.Proof.Gen.ReferenceIdeal.Read
import proofs.«156742_g71322226917400_cont_sun_m_433_6_alg».proof.Proof.FrameK
import proofs.«156742_g71322226917400_cont_sun_m_433_6_alg».proof.Proof.FrameKI
import proofs.«156742_g71322226917400_cont_sun_m_433_6_alg».proof.Proof.KernelRun
import proofs.«156742_g71322226917400_cont_sun_m_433_6_alg».proof.Proof.Bridge
import proofs.«156742_g71322226917400_cont_sun_m_433_6_alg».proof.Proof.Finite

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel's result array (the body's value of the launched arguments)
    and the reference's (its last stage of the same arguments) are equal: every entry of the first three arguments is
    real by the precondition, which is what the agreement of the two aggregates asks. -/
theorem algebraic : Cert.algebraic_KernelIdeal_ReferenceIdeal := by
  intro m ρ m' ρ' hpre hagree
  refine ⟨_, Cert.KernelIdeal.KRun.value_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Finite.real_of_pre m hpre c
  rw [Cert.ReferenceIdeal.Read.val_main_v72_eq, (hagree c).1, (hagree c).2.1, (hagree c).2.2.1, (hagree c).2.2.2.1,
    (hagree c).2.2.2.2.1, (hagree c).2.2.2.2.2.1, (hagree c).2.2.2.2.2.2]
  exact (Cert.Bridge.value_eq _ _ _ _ _ _ _ f0 f1 f2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
